-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S16384 : Shape := ⟨1, ![16384]⟩
abbrev S16384x32 : Shape := ⟨2, ![16384, 32]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x32 : S_.BroadcastsInDim S16384x32 (![] : Fin 0 → Fin S16384x32.rank)
  reducesTo_S16384x32_S_d0_1 : S16384x32.ReducesTo [0, 1] S_
  bcast_S_S4194304 : S_.BroadcastsInDim S4194304 (![] : Fin 0 → Fin S4194304.rank)
  reducesTo_S4194304_S_d0 : S4194304.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S4194304 32) (main_arg1 : IVec S4194304 32) (main_arg2 : FVec F S16384 .f32) (main_arg3 : FVec F S16384x32 .f32) : IVec S_ 1 :=
  let main_v0 : FVec F S16384 .f32 := Host.absf main_arg2
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S16384x32 .f32 := Host.absf main_arg3
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_c_2 : IVec S_ 32 := constantI S_ 32 0#32
  let main_v9 : IVec S4194304 32 := broadcastInDim S4194304 ![] bcast_S_S4194304 main_c_2
  let main_v10 : IVec S4194304 1 := cmpi .sge main_arg0 main_v9
  let main_c_3 : IVec S_ 1 := constantI S_ 1 1#1
  let main_v11 : IVec S_ 1 := (fun x v => Host.reduce IntOp.andi x v reducesTo_S4194304_S_d0 h_S_) main_v10 main_c_3
  let main_v12 : IVec S_ 1 := andi main_v8 main_v11
  let main_c_4 : IVec S_ 32 := constantI S_ 32 0#32
  let main_v13 : IVec S4194304 32 := broadcastInDim S4194304 ![] bcast_S_S4194304 main_c_4
  let main_v14 : IVec S4194304 1 := cmpi .sge main_arg1 main_v13
  let main_c_5 : IVec S_ 1 := constantI S_ 1 1#1
  let main_v15 : IVec S_ 1 := (fun x v => Host.reduce IntOp.andi x v reducesTo_S4194304_S_d0 h_S_) main_v14 main_c_5
  fn_part1 (F := F) main_v12 main_v15
-- ==== Kernel.lean ====
abbrev S4194304 : Shape := ⟨1, ![4194304]⟩
abbrev S16384 : Shape := ⟨1, ![16384]⟩
abbrev S16384x32 : Shape := ⟨2, ![16384, 32]⟩
abbrev S_ : Shape := ⟨0, ![]⟩
abbrev S4194304x1 : Shape := ⟨2, ![4194304, 1]⟩
abbrev S256x64 : Shape := ⟨2, ![256, 64]⟩
abbrev S256x64x32 : Shape := ⟨3, ![256, 64, 32]⟩
abbrev S256x32x64 : Shape := ⟨3, ![256, 32, 64]⟩
abbrev S256x2048 : Shape := ⟨2, ![256, 2048]⟩
abbrev S1x4194304 : Shape := ⟨2, ![1, 4194304]⟩
abbrev S512x1 : Shape := ⟨2, ![512, 1]⟩
abbrev S1x512 : Shape := ⟨2, ![1, 512]⟩
abbrev S1x256 : Shape := ⟨2, ![1, 256]⟩
abbrev S1x64 : Shape := ⟨2, ![1, 64]⟩
abbrev S512x256 : Shape := ⟨2, ![512, 256]⟩
abbrev S512x64 : Shape := ⟨2, ![512, 64]⟩
abbrev S512x2048 : Shape := ⟨2, ![512, 2048]⟩
abbrev S512x32x64 : Shape := ⟨3, ![512, 32, 64]⟩
abbrev S512x1x64 : Shape := ⟨3, ![512, 1, 64]⟩
abbrev S512x32 : Shape := ⟨2, ![512, 32]⟩
abbrev S512 : Shape := ⟨1, ![512]⟩

abbrev nBuf : Space → Nat
  | .hbm => 30
  | .vmem => 8
  | .smem => 0
  | _ => 0

abbrev bufTy : (tb : Table) → Fin (tcTables nBuf tb) → BufTy
  | .hbm, ⟨0, _⟩ => ⟨S4194304, .i32⟩
  | .hbm, ⟨1, _⟩ => ⟨S4194304, .i32⟩
  | .hbm, ⟨2, _⟩ => ⟨S16384, .f32⟩
  | .hbm, ⟨3, _⟩ => ⟨S16384x32, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S4194304, .i32⟩
  | .hbm, ⟨8, _⟩ => ⟨S4194304, .i32⟩
  | .hbm, ⟨9, _⟩ => ⟨S_, .i32⟩
  | .hbm, ⟨10, _⟩ => ⟨S4194304, .i32⟩
  | .hbm, ⟨11, _⟩ => ⟨S4194304, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4194304, .i32⟩
  | .hbm, ⟨16, _⟩ => ⟨S4194304, .i32⟩
  | .hbm, ⟨17, _⟩ => ⟨S_, .i32⟩
  | .hbm, ⟨18, _⟩ => ⟨S4194304, .i32⟩
  | .hbm, ⟨19, _⟩ => ⟨S4194304, .i32⟩
  | .hbm, ⟨20, _⟩ => ⟨S4194304x1, .i32⟩
  | .hbm, ⟨21, _⟩ => ⟨S4194304x1, .i32⟩
  | .hbm, ⟨22, _⟩ => ⟨S16384, .f32⟩
  | .hbm, ⟨23, _⟩ => ⟨S256x64, .f32⟩
  | .hbm, ⟨24, _⟩ => ⟨S256x64x32, .f32⟩
  | .hbm, ⟨25, _⟩ => ⟨S256x32x64, .f32⟩
  | .hbm, ⟨26, _⟩ => ⟨S256x2048, .f32⟩
  | .hbm, ⟨27, _⟩ => ⟨S256x2048, .bf16⟩
  | .hbm, ⟨28, _⟩ => ⟨S1x4194304, .f32⟩
  | .hbm, ⟨29, _⟩ => ⟨S4194304, .f32⟩
  | .local _ .vmem, ⟨0, _⟩ => ⟨S512x1, .i32⟩
  | .local _ .vmem, ⟨1, _⟩ => ⟨S512x1, .i32⟩
  | .local _ .vmem, ⟨2, _⟩ => ⟨S512x1, .i32⟩
  | .local _ .vmem, ⟨3, _⟩ => ⟨S512x1, .i32⟩
  | .local _ .vmem, ⟨4, _⟩ => ⟨S256x2048, .bf16⟩
  | .local _ .vmem, ⟨5, _⟩ => ⟨S256x64, .f32⟩
  | .local _ .vmem, ⟨6, _⟩ => ⟨S1x512, .f32⟩
  | .local _ .vmem, ⟨7, _⟩ => ⟨S1x512, .f32⟩
  | _, _ => ⟨S4194304, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_c_1 : Ref sig .tc := ⟨.hbm, 12, rfl⟩
abbrev main_c_2 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S4194304 : S_.BroadcastsInDim S4194304 (![] : Fin 0 → Fin S4194304.rank)
  shapeCasts_S4194304_S4194304x1 : S4194304.ShapeCasts S4194304x1
  shapeCasts_S16384_S256x64 : S16384.ShapeCasts S256x64
  shapeCasts_S16384x32_S256x64x32 : S16384x32.ShapeCasts S256x64x32
  transposes_S256x64x32_S256x32x64_0_2_1 : S256x64x32.Transposes [0, 2, 1] S256x32x64
  shapeCasts_S256x32x64_S256x2048 : S256x32x64.ShapeCasts S256x2048
  bitsLt_bf16_f32 : FTy.bits .bf16 < FTy.bits .f32
  iota_S1x256_d1_w32 : S1x256.Iotas .tc 32 [1]
  iota_S1x64_d1_w32 : S1x64.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x256 : S512x1.Broadcasts S512x256
  broadcasts_S1x256_S512x256 : S1x256.Broadcasts S512x256
  broadcasts_S512x1_S512x64 : S512x1.Broadcasts S512x64
  broadcasts_S1x64_S512x64 : S1x64.Broadcasts S512x64
  natLt_1_32 : 1 < 32
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  shapeCasts_S512x2048_S512x32x64 : S512x2048.ShapeCasts S512x32x64
  shapeCasts_S512x64_S512x1x64 : S512x64.ShapeCasts S512x1x64
  broadcasts_S512x1x64_S512x32x64 : S512x1x64.Broadcasts S512x32x64
  reduces_S512x32x64_S512x32 : S512x32x64.Reduces [2] S512x32
  reduces_S512x32_S512 : S512x32.Reduces [1] S512
  shapeCasts_S512_S512x1 : S512.ShapeCasts S512x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  reduces_S512x64_S512 : S512x64.Reduces [1] S512
  transposes_S512x1_p1_0_S1x512 : S512x1.Transposes [1, 0] S1x512
  inb_S1x512_S1x512_0_0 : ∀ a, (![0, 0] : Fin 2 → Nat) a + S1x512.size a ≤ S1x512.size a
  h_S1x512 : 0 < S1x512.numel
  shapeCasts_S1x4194304_S4194304 : S1x4194304.ShapeCasts S4194304
  dot_S512x256_S256x2048_S512x2048_1_0_0_1_n_n_wf : DotDims.WF S512x256 S256x2048 S512x2048 [1] [0] [0] [1] [] []
  dot_S512x256_S256x64_S512x64_1_0_0_1_n_n_wf : DotDims.WF S512x256 S256x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4194304x1.size a
  hwx0_0 : ∀ i : grid0.Coords, EltTy.bits .i32 = 32 ∨ (Rect.block (s := S4194304x1) S512x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4194304x1.size a
  hwx0_1 : ∀ i : grid0.Coords, EltTy.bits .i32 = 32 ∨ (Rect.block (s := S4194304x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .bf16 = 32 ∨ (Rect.block (s := S256x2048) S256x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x4194304.size a
  hwx0_4 : ∀ i : grid0.Coords, EltTy.bits .f32 = 32 ∨ (Rect.block (s := S1x4194304) S1x512.size (cc0_transform_4 i) (hinb0_4 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x256_S256x64_S512x64_1_0_0_1_n_n : DotDims S512x256 S256x64 S512x64 where
  lhsContracting := [1]
  rhsContracting := [0]
  lhsNonContracting := [0]
  rhsNonContracting := [1]
  lhsBatch := []
  rhsBatch := []
  wf := dot_S512x256_S256x64_S512x64_1_0_0_1_n_n_wf

abbrev win0_0 : Pipeline.Window sig grid0 :=
  Pipeline.Window.ofSpec (Memref.whole main_v2) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304 : Shape := ⟨1, ![4194304]⟩
abbrev S16384 : Shape := ⟨1, ![16384]⟩
abbrev S16384x32 : Shape := ⟨2, ![16384, 32]⟩
abbrev S32x16384 : Shape := ⟨2, ![32, 16384]⟩
abbrev S16384x16384 : Shape := ⟨2, ![16384, 16384]⟩
abbrev S_ : Shape := ⟨0, ![]⟩
abbrev S16384x1 : Shape := ⟨2, ![16384, 1]⟩
abbrev S4194304x1 : Shape := ⟨2, ![4194304, 1]⟩
abbrev S4194304x2 : Shape := ⟨2, ![4194304, 2]⟩

abbrev nBuf : Space → Nat
  | .hbm => 39
  | .vmem => 0
  | .smem => 0
  | _ => 0

abbrev bufTy : (tb : Table) → Fin (tcTables nBuf tb) → BufTy
  | .hbm, ⟨0, _⟩ => ⟨S4194304, .i32⟩
  | .hbm, ⟨1, _⟩ => ⟨S4194304, .i32⟩
  | .hbm, ⟨2, _⟩ => ⟨S16384, .f32⟩
  | .hbm, ⟨3, _⟩ => ⟨S16384x32, .f32⟩
  | .hbm, ⟨4, _⟩ => ⟨S32x16384, .f32⟩
  | .hbm, ⟨5, _⟩ => ⟨S16384x16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384x16384, .i32⟩
  | .hbm, ⟨10, _⟩ => ⟨S16384x16384, .i32⟩
  | .hbm, ⟨11, _⟩ => ⟨S_, .i32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S16384x1, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S_, .i32⟩
  | .hbm, ⟨22, _⟩ => ⟨S4194304, .i32⟩
  | .hbm, ⟨23, _⟩ => ⟨S4194304, .i1⟩
  | .hbm, ⟨24, _⟩ => ⟨S_, .i32⟩
  | .hbm, ⟨25, _⟩ => ⟨S4194304, .i32⟩
  | .hbm, ⟨26, _⟩ => ⟨S4194304, .i32⟩
  | .hbm, ⟨27, _⟩ => ⟨S4194304, .i32⟩
  | .hbm, ⟨28, _⟩ => ⟨S_, .i32⟩
  | .hbm, ⟨29, _⟩ => ⟨S4194304, .i32⟩
  | .hbm, ⟨30, _⟩ => ⟨S4194304, .i1⟩
  | .hbm, ⟨31, _⟩ => ⟨S_, .i32⟩
  | .hbm, ⟨32, _⟩ => ⟨S4194304, .i32⟩
  | .hbm, ⟨33, _⟩ => ⟨S4194304, .i32⟩
  | .hbm, ⟨34, _⟩ => ⟨S4194304, .i32⟩
  | .hbm, ⟨35, _⟩ => ⟨S4194304x1, .i32⟩
  | .hbm, ⟨36, _⟩ => ⟨S4194304x1, .i32⟩
  | .hbm, ⟨37, _⟩ => ⟨S4194304x2, .i32⟩
  | .hbm, ⟨38, _⟩ => ⟨S4194304, .f32⟩
  | _, _ => ⟨S4194304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_c : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_cst_0 : Ref sig .tc := ⟨.hbm, 16, rfl⟩
abbrev main_call0_call0_v0 : Ref sig .tc := ⟨.hbm, 17, rfl⟩
abbrev main_call0_call0_v1 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_c_0 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_c_1 : Ref sig .tc := ⟨.hbm, 28, rfl⟩
abbrev main_v10 : Ref sig .tc := ⟨.hbm, 29, rfl⟩
abbrev main_v11 : Ref sig .tc := ⟨.hbm, 30, rfl⟩
abbrev main_c_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩

abbrev nD : Nat := 1
abbrev τ : Topo := Topo.v7x

variable {F : FTy → Type} [FloatOps F]

class Facts₀ : Prop where
  transposes_S16384x32_S32x16384_1_0 : S16384x32.Transposes [1, 0] S32x16384
  pads_S16384_S16384_000 : S16384.Pads (![0] : Fin 1 → Nat) ![0] ![0] S16384
  h_S_ : 0 < S_.numel
  bcast_S_S16384x16384 : S_.BroadcastsInDim S16384x16384 (![] : Fin 0 → Fin S16384x16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  dot_S16384x32_S32x16384_S16384x16384_1_0_0_1_n_n_wf : DotDims.WF S16384x32 S32x16384 S16384x16384 [1] [0] [0] [1] [] []
  gather_S16384x16384_S4194304x2_S4194304_n_01_n_n_01_1_11_wf : GatherDims.WF S16384x16384 S4194304x2 S4194304 [] [0, 1] [] [0, 1] [] 1 ![1, 1]

variable [Facts₀]

def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf
def gather_S16384x16384_S4194304x2_S4194304_n_01_n_n_01_1_11 : GatherDims S16384x16384 S4194304x2 S4194304 where
  offsetDims := []
  collapsedSliceDims := [0, 1]
  operandBatchingDims := []
  startIndicesBatchingDims := []
  startIndexMap := [0, 1]
  indexVectorDim := 1
  sliceSizes := ![1, 1]
  wf := gather_S16384x16384_S4194304x2_S4194304_n_01_n_n_01_1_11_wf

class Facts : Prop extends Facts₀ where

variable [Facts]
-- ==== Proof.Cov.lean ====
/-
  The covariance of two categories, read at a pair of positions.

  There are 16384 categories. Category `c` has a factor row `cf[c, ·]` of 32 numbers and a deviation `std[c]`, and

      covariance[p, q] = Σ_k cf[p, k] · cf[q, k] + (if p = q then std[p]² else 0).

  A pair of 32-bit words `(x, y)` names the entry at the positions the words denote: a word is read as a signed
  integer and clamped into `[0, 16383]`. The result array holds, for each of the 4194304 pairs, that entry.
  Positions are split as `p = 64 · hi p + lo p` with `hi p < 256` and `lo p < 64`, and a factor row laid out
  coordinate-major along 2048 lanes puts coordinate `d` of the category with low part `b` at lane `64 · d + b`.
-/
import Idealize.ShloMosaic.PureOps.Ideal
import Idealize.ShloMosaic.Lib.ValueIdx

noncomputable section

open scoped BigOperators

namespace Cert.Cov

open Idealize.ShloMosaic Idealize.ShloMosaic.ValueIdx

/-- The position a word names among the 16384 categories: its signed value, negatives at 0, clamped to the last. -/
def pos (v : BitVec 32) : Fin 16384 := ⟨min v.toInt.toNat 16383, by omega⟩

/-- A negative word moved up by the number of categories; a non-negative word kept. -/
def wrap (v : BitVec 32) : BitVec 32 := if v.toInt < 0 then v + 16384#32 else v

/-- A word clipped into `[0, 16383]` as a signed integer. -/
def clip (v : BitVec 32) : BitVec 32 :=
  if 16383 ≤ v.toInt then 16383#32 else if v.toInt ≤ 0 then 0#32 else v

/-- The high part of a position: which group of 64 categories. -/
def hi (p : Fin 16384) : Fin 256 := ⟨p.val / 64, by have := p.isLt; omega⟩
/-- The low part of a position: which category inside its group. -/
def lo (p : Fin 16384) : Fin 64 := ⟨p.val % 64, by omega⟩
/-- The lane of coordinate `d` for low part `b`. -/
def lane (d : Fin 32) (b : Fin 64) : Fin 2048 := ⟨d.val * 64 + b.val, by have := d.isLt; have := b.isLt; omega⟩
/-- The position with high part `a` and low part `b`. -/
def join (a : Fin 256) (b : Fin 64) : Fin 16384 := ⟨a.val * 64 + b.val, by have := a.isLt; have := b.isLt; omega⟩

theorem join_hi_lo (p : Fin 16384) : join (hi p) (lo p) = p := Fin.ext (by simp only [join, hi, lo]; omega)

/-- The covariance between the categories at positions `p` and `q`. -/
def entry (std : FVec Ideal ⟨1, ![16384]⟩ .f32) (cf : FVec Ideal ⟨2, ![16384, 32]⟩ .f32) (p q : Fin 16384) : EReal :=
  (∑ k : Fin 32, cf (ix2 p k) * cf (ix2 q k)) + (if p = q then std (ix1 p) * std (ix1 p) else 0)

/-- The result array: for each pair, the covariance entry at the positions its two words name. -/
def G (x y : IVec ⟨1, ![4194304]⟩ 32) (std : FVec Ideal ⟨1, ![16384]⟩ .f32) (cf : FVec Ideal ⟨2, ![16384, 32]⟩ .f32) :
    FVec Ideal ⟨1, ![4194304]⟩ .f32 :=
  fun i => entry std cf (pos (x i)) (pos (y i))

/-- A non-negative word is not moved. -/
theorem wrap_of_nonneg (v : BitVec 32) (h : 0 ≤ v.toInt) : wrap v = v := by
  unfold wrap; rw [if_neg (by omega)]

/-- A clipped word, read unsigned, is a position. -/
theorem clip_toNat_lt (v : BitVec 32) : (clip v).toNat < 16384 := by
  unfold clip
  split
  · decide
  · split
    · decide
    · rename_i h1 h2
      have h3 : v.toInt = (v.toNat : Int) := by
        rw [BitVec.toInt_eq_toNat_cond]; split
        · rfl
        · rename_i h4; exfalso; rw [BitVec.toInt_eq_toNat_cond, if_neg h4] at h2; have := v.isLt; omega
      omega

/-- The position a clipped word names when read unsigned. -/
def clipPos (v : BitVec 32) : Fin 16384 := ⟨(clip v).toNat, clip_toNat_lt v⟩

/-- On a non-negative word clipping and clamping name the same position. -/
theorem clipPos_of_nonneg (v : BitVec 32) (h : 0 ≤ v.toInt) : clipPos v = pos v := by
  have h3 : v.toInt = (v.toNat : Int) := by
    rw [BitVec.toInt_eq_toNat_cond]; split
    · rfl
    · rename_i h4; exfalso; rw [BitVec.toInt_eq_toNat_cond, if_neg h4] at h; have := v.isLt; omega
  refine Fin.ext ?_
  show (clip v).toNat = min v.toInt.toNat 16383
  unfold clip
  split
  · rename_i h1; show 16383 = _; omega
  · split
    · rename_i h1 h2; show 0 = _; omega
    · omega

/-- The clipped word is the word of its position. -/
theorem clip_eq_ofNat (v : BitVec 32) : clip v = BitVec.ofNat 32 (clipPos v).val := by
  show clip v = BitVec.ofNat 32 (clip v).toNat
  exact (BitVec.ofNat_toNat _ _).symm ▸ rfl

end Cert.Cov

end
-- ==== Proof.Words.lean ====
/-
  The words behind the positions: how the kernel's shift, mask and compare, the host's clip, and the reference's
  wrap and diagonal test read on the word of a position.

  A position `p < 16384` is the word `p`. Shifting it right by 6 gives the word of its high part, masking it with
  63 the word of its low part; comparing either with the word of a lane index and converting the one-bit answer to a
  number gives 1 on the position's own lane and 0 elsewhere.
-/
import Idealize.ShloMosaic.PureOps.Ideal
import proofs.«410167_j32238024524408_3_alg».proof.Proof.Cov

noncomputable section

namespace Cert.Cov

open Idealize.ShloMosaic

/-- A one-bit answer widened to a word and read as a signed number is 1 for "yes" and 0 for "no". -/
private theorem ofBool_num (c : Bool) :
    FloatOps.sitofp (F := Ideal) .f32 ((BitVec.ofBool c).setWidth 32) = if c then (1 : EReal) else 0 := by
  cases c
  · show (((((BitVec.ofBool false).setWidth 32).toInt : ℤ) : ℝ) : EReal) = 0
    rw [show ((BitVec.ofBool false).setWidth 32).toInt = 0 from by decide]; simp
  · show (((((BitVec.ofBool true).setWidth 32).toInt : ℤ) : ℝ) : EReal) = 1
    rw [show ((BitVec.ofBool true).setWidth 32).toInt = 1 from by decide]; simp

/-- The word of a number below 2³² reads back as that number. -/
private theorem word_toNat (n : Nat) (h : n < 2 ^ 32) : (BitVec.ofNat 32 n).toNat = n := by
  rw [BitVec.toNat_ofNat]; exact Nat.mod_eq_of_lt h

/-- Two numbers below 2³² have the same word exactly when they are equal. -/
private theorem word_beq (m n : Nat) (hm : m < 2 ^ 32) (hn : n < 2 ^ 32) :
    (BitVec.ofNat 32 m == BitVec.ofNat 32 n) = decide (m = n) := by
  by_cases h : m = n
  · subst h; simp
  · rw [decide_eq_false h]
    refine beq_eq_false_iff_ne.2 fun he => h ?_
    have := congrArg BitVec.toNat he
    rwa [word_toNat m hm, word_toNat n hn] at this

/-- Shifting the word of a position right by 6 gives the word of its quotient by 64. -/
private theorem word_shr (p : Nat) (hp : p < 16384) :
    IntOp.shrsi .vector (BitVec.ofNat 32 p) 6#32 = BitVec.ofNat 32 (p / 64) := by
  have hm : (BitVec.ofNat 32 p).msb = false := by
    rw [BitVec.msb_eq_decide, word_toNat p (by omega)]; simp; omega
  unfold IntOp.shrsi
  rw [if_pos (by decide)]
  apply BitVec.eq_of_toNat_eq
  rw [BitVec.toNat_sshiftRight'_of_msb_false hm, word_toNat p (by omega), word_toNat (p / 64) (by omega),
    show (6#32).toNat = 6 from rfl, Nat.shiftRight_eq_div_pow]

/-- Masking the word of a number with 63 gives the word of its remainder by 64. -/
private theorem word_and (p : Nat) (hp : p < 2 ^ 32) :
    IntOp.andi (BitVec.ofNat 32 p) 63#32 = BitVec.ofNat 32 (p % 64) := by
  unfold IntOp.andi
  apply BitVec.eq_of_toNat_eq
  rw [BitVec.toNat_and, word_toNat p hp, word_toNat (p % 64) (by omega)]
  exact Nat.and_two_pow_sub_one_eq_mod p 6

/-- "Lane `a` is the high part of `p`", as a number. -/
theorem hi_mask (p : Fin 16384) (a : Fin 256) :
    FloatOps.sitofp (F := Ideal) .f32
        ((IntOp.cmpi .eq (IntOp.shrsi .vector (BitVec.ofNat 32 p.val) 6#32) (BitVec.ofNat 32 a.val)).setWidth 32)
      = if a = hi p then (1 : EReal) else 0 := by
  have hp := p.isLt
  have ha := a.isLt
  rw [word_shr p.val hp]
  unfold IntOp.cmpi
  rw [ofBool_num, word_beq _ _ (by omega) (by omega)]
  by_cases h : a = hi p
  · rw [if_pos h, h]; simp [hi]
  · rw [if_neg h]
    have : ¬ (p.val / 64 = a.val) := fun he => h (Fin.ext (by simp only [hi]; omega))
    simp [this]

/-- "Lane `b` is the low part of `p`", as a number. -/
theorem lo_mask (p : Fin 16384) (b : Fin 64) :
    FloatOps.sitofp (F := Ideal) .f32
        ((IntOp.cmpi .eq (IntOp.andi (BitVec.ofNat 32 p.val) 63#32) (BitVec.ofNat 32 b.val)).setWidth 32)
      = if b = lo p then (1 : EReal) else 0 := by
  have hp := p.isLt
  have hb := b.isLt
  rw [word_and p.val (by omega)]
  unfold IntOp.cmpi
  rw [ofBool_num, word_beq _ _ (by omega) (by omega)]
  by_cases h : b = lo p
  · rw [if_pos h, h]; simp [lo]
  · rw [if_neg h]
    have : ¬ (p.val % 64 = b.val) := fun he => h (Fin.ext (by simp only [lo]; omega))
    simp [this]

/-- "The two positions are the same", as a number. -/
theorem same_mask (p q : Fin 16384) :
    FloatOps.sitofp (F := Ideal) .f32
        ((IntOp.cmpi .eq (BitVec.ofNat 32 p.val) (BitVec.ofNat 32 q.val)).setWidth 32)
      = if p = q then (1 : EReal) else 0 := by
  have hp := p.isLt
  have hq := q.isLt
  unfold IntOp.cmpi
  rw [ofBool_num, word_beq _ _ (by omega) (by omega)]
  by_cases h : p = q
  · rw [if_pos h, h]; simp
  · rw [if_neg h]
    have : ¬ (p.val = q.val) := fun he => h (Fin.ext he)
    simp [this]

/-- The host's clip: the signed maximum with 0, then the signed minimum with 16383. -/
theorem clip_words (v : BitVec 32) : IntOp.minsi 16383#32 (IntOp.maxsi 0#32 v) = clip v := by
  have h0 : (0#32).toInt = 0 := by decide
  have h1 : (16383#32).toInt = 16383 := by decide
  unfold IntOp.minsi IntOp.maxsi clip
  simp only [BitVec.slt_eq_decide, h0, h1, decide_eq_true_eq]
  by_cases ha : v.toInt < 0
  · rw [if_pos ha, h0, if_neg (by omega), if_neg (by omega), if_pos (by omega)]
  · rw [if_neg ha]
    by_cases hb : 16383 < v.toInt
    · rw [if_pos hb, if_pos (by omega)]
    · rw [if_neg hb]
      by_cases hc : 16383 ≤ v.toInt
      · rw [if_pos hc]
        apply BitVec.eq_of_toInt_eq; rw [h1]; omega
      · rw [if_neg hc]
        by_cases hd : v.toInt ≤ 0
        · rw [if_pos hd]
          apply BitVec.eq_of_toInt_eq; rw [h0]; omega
        · rw [if_neg hd]

/-- The reference's wrap: a select on "negative" between the word moved up by 16384 and the word. -/
theorem wrap_words (v : BitVec 32) : Scalar.select (IntOp.cmpi .slt v 0#32) (IntOp.addi v 16384#32) v = wrap v := by
  have h0 : (0#32).toInt = 0 := by decide
  unfold Scalar.select IntOp.cmpi IntOp.addi wrap
  simp only [BitVec.slt_eq_decide, h0]
  by_cases ha : v.toInt < 0
  · rw [if_pos ha, decide_eq_true ha, if_pos (by decide)]
  · rw [if_neg ha, decide_eq_false ha, if_neg (by decide)]

/-- The diagonal test on the words of a row and a column position. -/
theorem diag_words (p q : Fin 16384) :
    IntOp.cmpi .eq (IntOp.addi (BitVec.ofNat 32 p.val) 0#32) (BitVec.ofNat 32 q.val) = if p = q then 1#1 else 0#1 := by
  have hp := p.isLt
  have hq := q.isLt
  unfold IntOp.cmpi IntOp.addi
  rw [BitVec.add_zero, word_beq _ _ (by omega) (by omega)]
  by_cases h : p = q
  · rw [if_pos h, h]; simp
  · rw [if_neg h]
    have : ¬ (p.val = q.val) := fun he => h (Fin.ext he)
    simp [this]

end Cert.Cov

end
-- ==== Proof.KernelHost.lean ====
/-
  The arrays the kernel's four input windows read, as the region finds them, at an index.

  The two index columns are the argument index arrays clipped into `[0, 16383]` and laid as one column each; the
  table of squared deviations is `std · std` laid out 256 × 64 (group by position inside the group); the factor
  table is the factor matrix split into 256 groups of 64 rows, each group transposed, and flattened to 2048 lanes:
  lane `64 · d + b` of group `a` holds coordinate `d` of category `64 · a + b`.
-/
import proofs.«410167_j32238024524408_3_alg».proof.Proof.Gen.KernelIdeal.Frame
import proofs.«410167_j32238024524408_3_alg».proof.Proof.Cov
import proofs.«410167_j32238024524408_3_alg».proof.Proof.Words
import Idealize.ShloMosaic.Lib.StableHlo.Run
import Idealize.ShloMosaic.Lib.Pipeline.Value
import Idealize.ShloMosaic.Lib.ValueIdx

noncomputable section

namespace Cert.KernelIdeal.HostVal

open Cert.KernelIdeal Cert.KernelIdeal.Gen Idealize.ShloMosaic Idealize.ShloMosaic.TcCoe Idealize.SL.Sem
open Idealize.ShloMosaic.StableHlo Idealize.ShloMosaic.ValueIdx Idealize.ShloMosaic.Pipeline

variable (m : (ℓ : Loc nD τ sig) → Buf (Elt Ideal) ℓ)

/-- The first index array, as launched. -/
abbrev xs (c : Dev nD) : IVec S4194304 32 := m ((c.tc : Thread nD τ).loc main_arg0)
/-- The second index array, as launched. -/
abbrev ys (c : Dev nD) : IVec S4194304 32 := m ((c.tc : Thread nD τ).loc main_arg1)
/-- The deviations, as launched. -/
abbrev stds (c : Dev nD) : FVec Ideal S16384 .f32 := m ((c.tc : Thread nD τ).loc main_arg2)
/-- The factor matrix, as launched. -/
abbrev cfs (c : Dev nD) : FVec Ideal S16384x32 .f32 := m ((c.tc : Thread nD τ).loc main_arg3)

/-- The clip of an index array as the host computes it. -/
def clipped (x : IVec S4194304 32) : IVec S4194304 32 :=
  minsi (broadcastInDim S4194304 ![] bcast_S_S4194304 (constantI S_ 32 16383#32))
    (maxsi (broadcastInDim S4194304 ![] bcast_S_S4194304 (constantI S_ 32 0#32)) x)

theorem clipped_apply (x : IVec S4194304 32) (i : S4194304.Idx) : clipped x i = Cert.Cov.clip (x i) :=
  Cert.Cov.clip_words (x i)

theorem V_v2 (c : Dev nD) :
    (V m c main_v2 : S4194304x1.Idx → BitVec 32) = shapeCast S4194304x1 (clipped (xs m c)) shapeCasts_S4194304_S4194304x1 := by
  dsimp only [Gen.V, Gen.V0]
  simp only [hostOps0, hostOps0_1, hostOps0_2, hostOps0_3, hostOps0_4, List.flatten_cons, List.flatten_nil, List.append_nil,
    List.cons_append, List.nil_append]
  after_results
  rfl

theorem V_v3 (c : Dev nD) :
    (V m c main_v3 : S4194304x1.Idx → BitVec 32) = shapeCast S4194304x1 (clipped (ys m c)) shapeCasts_S4194304_S4194304x1 := by
  dsimp only [Gen.V, Gen.V0]
  simp only [hostOps0, hostOps0_1, hostOps0_2, hostOps0_3, hostOps0_4, List.flatten_cons, List.flatten_nil, List.append_nil,
    List.cons_append, List.nil_append]
  after_results
  rfl

theorem V_v5 (c : Dev nD) :
    (V m c main_v5 : S256x64.Idx → EReal) = shapeCast S256x64 (mulf (stds m c) (stds m c)) shapeCasts_S16384_S256x64 := by
  dsimp only [Gen.V, Gen.V0]
  simp only [hostOps0, hostOps0_1, hostOps0_2, hostOps0_3, hostOps0_4, List.flatten_cons, List.flatten_nil, List.append_nil,
    List.cons_append, List.nil_append]
  after_results
  rfl

/-- The factor matrix laid out group by group, each group transposed and flattened. -/
def laid (cf : FVec Ideal S16384x32 .f32) : FVec Ideal S256x2048 .f32 :=
  shapeCast S256x2048
    (transpose S256x32x64 [0, 2, 1] (shapeCast S256x64x32 cf shapeCasts_S16384x32_S256x64x32)
      transposes_S256x64x32_S256x32x64_0_2_1) shapeCasts_S256x32x64_S256x2048

theorem V_v9 (c : Dev nD) :
    (V m c main_v9 : S256x2048.Idx → EReal) = truncf .bf16 (laid (cfs m c)) bitsLt_bf16_f32 := by
  dsimp only [Gen.V, Gen.V0]
  simp only [hostOps0, hostOps0_1, hostOps0_2, hostOps0_3, hostOps0_4, List.flatten_cons, List.flatten_nil, List.append_nil,
    List.cons_append, List.nil_append]
  after_results
  rfl

/-- Row `i` of the first index column is the clipped word of pair `i`. -/
theorem V_v2_apply (c : Dev nD) (i : Fin 4194304) :
    (V m c main_v2 : S4194304x1.Idx → BitVec 32) (ix2 i (0 : Fin 1)) = Cert.Cov.clip (xs m c (ix1 i)) := by
  rw [V_v2]
  refine (shapeCast_apply _ _ (ix2 i (0 : Fin 1)) (ix1 i) ?_).trans (clipped_apply _ _)
  rw [Shape.rowMajor_val_one, Shape.rowMajor_val_two]
  show i.val = i.val * 1 + 0
  omega

/-- Row `i` of the second index column is the clipped word of pair `i`. -/
theorem V_v3_apply (c : Dev nD) (i : Fin 4194304) :
    (V m c main_v3 : S4194304x1.Idx → BitVec 32) (ix2 i (0 : Fin 1)) = Cert.Cov.clip (ys m c (ix1 i)) := by
  rw [V_v3]
  refine (shapeCast_apply _ _ (ix2 i (0 : Fin 1)) (ix1 i) ?_).trans (clipped_apply _ _)
  rw [Shape.rowMajor_val_one, Shape.rowMajor_val_two]
  show i.val = i.val * 1 + 0
  omega

/-- Entry `(a, b)` of the table of squared deviations is the squared deviation of category `64 · a + b`. -/
theorem V_v5_apply (c : Dev nD) (a : Fin 256) (b : Fin 64) :
    (V m c main_v5 : S256x64.Idx → EReal) (ix2 a b)
      = stds m c (ix1 (Cert.Cov.join a b)) * stds m c (ix1 (Cert.Cov.join a b)) := by
  rw [V_v5]
  refine (shapeCast_apply (mulf (stds m c) (stds m c)) shapeCasts_S16384_S256x64 (ix2 a b) (ix1 (Cert.Cov.join a b)) ?_).trans
    (mulf_apply (stds m c) (stds m c) (ix1 (Cert.Cov.join a b)))
  rw [Shape.rowMajor_val_one, Shape.rowMajor_val_two]
  show a.val * 64 + b.val = a.val * 64 + b.val
  rfl

/-- Lane `64 · d + b` of group `a` of the factor table is coordinate `d` of category `64 · a + b`. -/
theorem V_v9_apply (c : Dev nD) (a : Fin 256) (d : Fin 32) (b : Fin 64) :
    (V m c main_v9 : S256x2048.Idx → EReal) (ix2 a (Cert.Cov.lane d b)) = cfs m c (ix2 (Cert.Cov.join a b) d) := by
  rw [V_v9]
  refine (truncf_apply (laid (cfs m c)) bitsLt_bf16_f32 (ix2 a (Cert.Cov.lane d b))).trans ?_
  unfold laid
  refine (shapeCast_apply _ _ (ix2 a (Cert.Cov.lane d b)) (ix3 a d b) ?_).trans ?_
  · rw [Shape.rowMajor_val_three, Shape.rowMajor_val_two]
    show (a.val * 32 + d.val) * 64 + b.val = a.val * 2048 + (d.val * 64 + b.val)
    omega
  refine (transpose_apply _ _ _ (ix3 a d b) (ix3 a b d) ?_).trans ?_
  · intro k
    match k with
    | ⟨0, _⟩ => rfl
    | ⟨1, _⟩ => rfl
    | ⟨2, _⟩ => rfl
  refine shapeCast_apply _ _ (ix3 a b d) (ix2 (Cert.Cov.join a b) d) ?_
  rw [Shape.rowMajor_val_three, Shape.rowMajor_val_two]
  show (a.val * 64 + b.val) * 32 + d.val = (a.val * 64 + b.val) * 32 + d.val
  rfl

end Cert.KernelIdeal.HostVal

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibColumns.lean ====
/-
  Columns of a matrix, and three arrays of rows laid side by side, read at an entry.

  A vector of length a set up as an a × 1 column has the vector's entry i at (i, 0); read back as a vector it gives the
  column's entry. A column spread over the b entries of each row has, at (p, c), the column's entry p. Joining an
  n × w₁, an n × w₂ and an n × w₃ array along the column axis gives an array whose entry (r, j) is the first array's
  entry (r, j) for j < w₁, the second's entry (r, j − w₁) for w₁ ≤ j < w₁ + w₂, and the third's entry
  (r, j − w₁ − w₂) from there on.
-/
import Idealize.ShloMosaic.Lib.Pipeline.Value
import Idealize.ShloMosaic.Lib.ValueIdx

noncomputable section

namespace Cert.LibColumns

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE JOIN OF THREE AT `(r, j)`: the piece whose span of columns holds `j`, at `j` less the widths before it. -/
theorem concat3_apply {n w₁ w₂ w₃ w : ℕ} (x : (⟨2, ![n, w₁]⟩ : Shape).Idx → α) (y : (⟨2, ![n, w₂]⟩ : Shape).Idx → α)
    (z : (⟨2, ![n, w₃]⟩ : Shape).Idx → α)
    (h : Shape.Concatenates [(⟨2, ![n, w₁]⟩ : Shape), ⟨2, ![n, w₂]⟩, ⟨2, ![n, w₃]⟩] ⟨2, ![n, w]⟩ 1)
    (hw : w = w₁ + w₂ + w₃) (r : Fin n) (j : Fin w) :
    concatenate ⟨2, ![n, w]⟩ 1 [⟨⟨2, ![n, w₁]⟩, x⟩, ⟨⟨2, ![n, w₂]⟩, y⟩, ⟨⟨2, ![n, w₃]⟩, z⟩] h (ix2 r j)
      = if h1 : j.val < w₁ then x (ix2 r ⟨j.val, h1⟩)
        else if h2 : j.val < w₁ + w₂ then y (ix2 r ⟨j.val - w₁, by omega⟩)
        else z (ix2 r ⟨j.val - w₁ - w₂, by have := j.isLt; omega⟩) := by
  split
  · next h1 =>
    exact concatenate_apply_piece 1 [⟨⟨2, ![n, w₁]⟩, x⟩, ⟨⟨2, ![n, w₂]⟩, y⟩, ⟨⟨2, ![n, w₃]⟩, z⟩] h (ix2 r j) 0 (by simp) _ x rfl rfl 0 rfl (ix2 r ⟨j.val, h1⟩)
      (fun b hb => match b, hb with
        | ⟨0, _⟩, _ => rfl
        | ⟨1, _⟩, hb => absurd rfl hb) (Nat.zero_add _)
  · next h1 =>
    split
    · next h2 =>
      exact concatenate_apply_piece 1 [⟨⟨2, ![n, w₁]⟩, x⟩, ⟨⟨2, ![n, w₂]⟩, y⟩, ⟨⟨2, ![n, w₃]⟩, z⟩] h (ix2 r j) 1 (by simp) _ y rfl rfl w₁ (by simp) (ix2 r ⟨j.val - w₁, by omega⟩)
        (fun b hb => match b, hb with
          | ⟨0, _⟩, _ => rfl
          | ⟨1, _⟩, hb => absurd rfl hb) (by show w₁ + (j.val - w₁) = j.val; omega)
    · next h2 =>
      exact concatenate_apply_piece 1 [⟨⟨2, ![n, w₁]⟩, x⟩, ⟨⟨2, ![n, w₂]⟩, y⟩, ⟨⟨2, ![n, w₃]⟩, z⟩] h (ix2 r j) 2 (by simp) _ z rfl rfl (w₁ + w₂) (by simp)
        (ix2 r ⟨j.val - w₁ - w₂, by have := j.isLt; omega⟩)
        (fun b hb => match b, hb with
          | ⟨0, _⟩, _ => rfl
          | ⟨1, _⟩, hb => absurd rfl hb) (by show w₁ + w₂ + (j.val - w₁ - w₂) = j.val; omega)

end Cert.LibColumns

end
-- ==== Proof.LibOneHot.lean ====
/-
  Picking one entry with a one-hot row, and the layout steps around it.

  A sum over a finite index weighted by the indicator of one index `a0` is the term at `a0`: on the extended reals
  `0 · x = 0` and `1 · x = x` for every `x`, infinite ones included, so nothing need be finite. Hence a matrix product
  of a one-hot row with a table is the table's row the one sits on, and a masked sum along the last axis is the entry
  on the mask's lane. With them the casts and broadcasts such a gather is written with — an `[a, b]` array given a
  unit middle axis, that axis spread over `c` copies — and the sums along the last axis of a rank-2 and a rank-3
  array, each read at an entry.
-/
import Idealize.ShloMosaic.PureOps.Ideal.Laws
import Idealize.ShloMosaic.Lib.ValueIdx
import Idealize.ShloMosaic.Lib.ValueLayout
import Idealize.ShloMosaic.Lib.Pipeline.Value
import proofs.«410167_j32238024524408_3_alg».proof.Proof.LibPlainDot

noncomputable section

open scoped BigOperators

namespace Cert.LibOneHot

open Idealize.ShloMosaic Idealize.ShloMosaic.ValueIdx Cert

/-- A sum weighted on the left by the indicator of one index is the term at that index. -/
theorem sum_onehot_mul {n : Nat} (f : Fin n → EReal) (a0 : Fin n) :
    ∑ a : Fin n, (if a = a0 then (1 : EReal) else 0) * f a = f a0 := by
  rw [Finset.sum_eq_single a0]
  · rw [if_pos rfl, one_mul]
  · intro a _ hne
    rw [if_neg hne, zero_mul]
  · intro h
    exact absurd (Finset.mem_univ a0) h

/-- A sum weighted on the right by the indicator of one index is the term at that index. -/
theorem sum_mul_onehot {n : Nat} (f : Fin n → EReal) (b0 : Fin n) :
    ∑ b : Fin n, f b * (if b = b0 then (1 : EReal) else 0) = f b0 := by
  rw [Finset.sum_eq_single b0]
  · rw [if_pos rfl, mul_one]
  · intro b _ hne
    rw [if_neg hne, mul_zero]
  · intro h
    exact absurd (Finset.mem_univ b0) h

/-- A one-hot row times a table, into the zero accumulator, is the table's row the one sits on. -/
theorem onehot_matmul_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (A : FVec Ideal ⟨2, ![M, K]⟩ φ₁) (t : FVec Ideal ⟨2, ![K, N]⟩ φ₂) (r : Fin M) (a0 : Fin K)
    (hA : ∀ a : Fin K, A (ix2 r a) = if a = a0 then (1 : EReal) else 0) (j : Fin N) :
    FloatOps.matmul d prec A t (constant (F := Ideal) ⟨2, ![M, N]⟩ .f32 0x00000000#32) (ix2 r j) = t (ix2 a0 j) := by
  refine (LibPlainDot.matmul_zero_apply d hlc hrc hln hrn hlb hrb prec A t r j).trans ?_
  refine (Finset.sum_congr rfl fun a _ => congrArg (· * t (ix2 a j)) (hA a)).trans ?_
  exact sum_onehot_mul (fun a => t (ix2 a j)) a0

variable {α : Type}

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, 1, b]` array spread over `c` copies of its middle axis reads, at `(i, k, j)`, the operand at `(i, 0, j)`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (k : Fin c) (j : Fin b) :
    broadcastTo ⟨3, ![a, c, b]⟩ v h (ix3 i k j) = v (ix3 i (0 : Fin 1) j) := by
  refine broadcastTo_apply v h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- The sum over the last axis of a rank-3 array, at `(i, k)`: the sum over `j` of the entries `(i, k, j)`. -/
theorem sumLast3_apply {a c b : ℕ} {φ : FTy} (src : FVec Ideal ⟨3, ![a, c, b]⟩ φ) (acc : BitVec φ.bits)
    (h : (⟨3, ![a, c, b]⟩ : Shape).Reduces [2] ⟨2, ![a, c]⟩) (hφ : FKind.Formats φ)
    (hacc : acc = FKind.add.neutral φ hφ) (i : Fin a) (k : Fin c) :
    multiReduction (F := Ideal) .add [2] ⟨2, ![a, c]⟩ src acc h hφ hacc (ix2 i k) = ∑ j : Fin b, src (ix3 i k j) := by
  refine (Ideal.multiReduction_add_single src acc h hφ hacc (ix2 i k)).trans ?_
  refine Finset.sum_congr rfl fun j _ => congrArg src ?_
  funext ax
  refine Fin.ext ?_
  match ax with
  | ⟨0, _⟩ => rfl
  | ⟨1, _⟩ => rfl
  | ⟨2, _⟩ => rfl

/-- The sum over the last axis of a matrix, at row `i`: the sum over `j` of the entries `(i, j)`. -/
theorem sumLast2_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (i : Fin a) :
    multiReduction (F := Ideal) .add [1] ⟨1, ![a]⟩ src acc h hφ hacc (ix1 i) = ∑ j : Fin b, src (ix2 i j) := by
  refine (Ideal.multiReduction_add_single src acc h hφ hacc (ix1 i)).trans ?_
  refine Finset.sum_congr rfl fun j _ => congrArg src ?_
  funext ax
  refine Fin.ext ?_
  match ax with
  | ⟨0, _⟩ => rfl
  | ⟨1, _⟩ => rfl

end Cert.LibOneHot

end
-- ==== Proof.KernelBody.lean ====
/-
  What the kernel body leaves in its output block, read at one pair of the tile.
-/
import proofs.«410167_j32238024524408_3_alg».proof.Proof.Gen.KernelIdeal.Frame
import proofs.«410167_j32238024524408_3_alg».proof.Proof.Cov
import proofs.«410167_j32238024524408_3_alg».proof.Proof.Words
import proofs.«410167_j32238024524408_3_alg».proof.Proof.LibPlainDot
import proofs.«410167_j32238024524408_3_alg».proof.Proof.LibColumns
import proofs.«410167_j32238024524408_3_alg».proof.Proof.LibOneHot
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx Cert.Cov Cert.LibOneHot

/-! ## The one-bit tests of a row's word against the lanes -/

/-- The lane numbers along axis 1 of a one-row array: lane `a` holds the word of `a`. -/
theorem iota_row_apply (n : Nat) (h : (⟨2, ![1, n]⟩ : Shape).Iotas .tc 32 [1]) (a : Fin n) :
    iota .tc ⟨2, ![1, n]⟩ 32 [1] h (ix2 (0 : Fin 1) a) = BitVec.ofNat 32 a.val :=
  congrArg (BitVec.ofNat 32) (by
    show 0 * n + a.val = a.val
    rw [Nat.zero_mul, Nat.zero_add])

/-- "Lane `a` is the word of row `r` shifted right by 6": the high-part test, as a bit. -/
theorem hiBit_apply (v : IVec S512x1 32) (hb1 : S512x1.Broadcasts S512x256) (hb2 : S1x256.Broadcasts S512x256)
    (hi' : S1x256.Iotas .tc 32 [1]) (r : Fin 512) (a : Fin 256) :
    cmpi .eq (broadcastTo S512x256 (shrsi v (broadcast S512x1 6#32)) hb1)
        (broadcastTo S512x256 (iota .tc S1x256 32 [1] hi') hb2) (ix2 r a)
      = IntOp.cmpi .eq (IntOp.shrsi .vector (v (ix2 r (0 : Fin 1))) 6#32) (BitVec.ofNat 32 a.val) := by
  refine congrArg₂ (IntOp.cmpi .eq) ?_ ?_
  · exact LibColumns.broadcastTo_a1_ab_apply _ hb1 r a
  · exact (broadcastTo_1b_ab_apply _ hb2 r a).trans (iota_row_apply 256 hi' a)

/-- "Lane `b` is the word of row `r` masked with 63": the low-part test, as a bit. -/
theorem loBit_apply (v : IVec S512x1 32) (hb1 : S512x1.Broadcasts S512x64) (hb2 : S1x64.Broadcasts S512x64)
    (hi' : S1x64.Iotas .tc 32 [1]) (r : Fin 512) (b : Fin 64) :
    cmpi .eq (broadcastTo S512x64 (andi v (broadcast S512x1 63#32)) hb1)
        (broadcastTo S512x64 (iota .tc S1x64 32 [1] hi') hb2) (ix2 r b)
      = IntOp.cmpi .eq (IntOp.andi (v (ix2 r (0 : Fin 1))) 63#32) (BitVec.ofNat 32 b.val) := by
  refine congrArg₂ (IntOp.cmpi .eq) ?_ ?_
  · exact LibColumns.broadcastTo_a1_ab_apply _ hb1 r b
  · exact (broadcastTo_1b_ab_apply _ hb2 r b).trans (iota_row_apply 64 hi' b)

/-- The first index column re-cast to its own shape is itself. -/
theorem pay2_eq (v : Vec Ideal S512x1 .i32) : k0_pay2 (F := Ideal) v = v := shapeCast_self v _

/-- The second index column re-cast to its own shape is itself. -/
theorem pay3_eq (v : Vec Ideal S512x1 .i32) : k0_pay3 (F := Ideal) v = v := shapeCast_self v _

/-- The high-part bit of the first column's row `r` at lane `a`. -/
theorem pay4_apply (v : Vec Ideal S512x1 .i32) (r : Fin 512) (a : Fin 256) :
    k0_pay4 (F := Ideal) v (ix2 r a)
      = IntOp.cmpi .eq (IntOp.shrsi .vector (v (ix2 r (0 : Fin 1))) 6#32) (BitVec.ofNat 32 a.val) :=
  (hiBit_apply (k0_pay2 (F := Ideal) v) _ _ _ r a).trans (by rw [pay2_eq])

/-- The high-part bit of the first column, widened and converted: 1 on the high part's lane, 0 elsewhere. -/
theorem hiMask_apply (v : Vec Ideal S512x1 .i32) (hlt : 1 < 32) (r : Fin 512) (a : Fin 256) (p : Fin 16384)
    (h : v (ix2 r (0 : Fin 1)) = BitVec.ofNat 32 p.val) :
    sitofp (F := Ideal) .f32 (extui 32 (k0_pay4 (F := Ideal) v) hlt) (ix2 r a) = if a = hi p then (1 : EReal) else 0 := by
  show FloatOps.sitofp (F := Ideal) .f32 ((k0_pay4 (F := Ideal) v (ix2 r a)).setWidth 32) = _
  rw [pay4_apply, h]
  exact hi_mask p a

/-- The low-part mask of the first column: 1 on the low part's lane, 0 elsewhere. -/
theorem pay5_apply (v : Vec Ideal S512x1 .i32) (r : Fin 512) (b : Fin 64) (p : Fin 16384)
    (h : v (ix2 r (0 : Fin 1)) = BitVec.ofNat 32 p.val) :
    k0_pay5 (F := Ideal) v (ix2 r b) = if b = lo p then (1 : EReal) else 0 := by
  refine (congrArg (fun w : BitVec 1 => FloatOps.sitofp (F := Ideal) .f32 (w.setWidth 32))
    (loBit_apply (k0_pay2 (F := Ideal) v) _ _ _ r b)).trans ?_
  rw [pay2_eq, h]
  exact lo_mask p b

/-- The low-part mask of the second column. -/
theorem pay7_apply (v : Vec Ideal S512x1 .i32) (r : Fin 512) (b : Fin 64) (q : Fin 16384)
    (h : v (ix2 r (0 : Fin 1)) = BitVec.ofNat 32 q.val) :
    k0_pay7 (F := Ideal) v (ix2 r b) = if b = lo q then (1 : EReal) else 0 := by
  refine (congrArg (fun w : BitVec 1 => FloatOps.sitofp (F := Ideal) .f32 (w.setWidth 32))
    (loBit_apply (k0_pay3 (F := Ideal) v) _ _ _ r b)).trans ?_
  rw [pay3_eq, h]
  exact lo_mask q b

/-- The high-part mask of the second column. -/
theorem pay8_apply (v : Vec Ideal S512x1 .i32) (r : Fin 512) (a : Fin 256) (q : Fin 16384)
    (h : v (ix2 r (0 : Fin 1)) = BitVec.ofNat 32 q.val) :
    k0_pay8 (F := Ideal) v (ix2 r a) = if a = hi q then (1 : EReal) else 0 := by
  refine (congrArg (fun w : BitVec 1 => FloatOps.sitofp (F := Ideal) .f32 (w.setWidth 32))
    (hiBit_apply (k0_pay3 (F := Ideal) v) _ _ _ r a)).trans ?_
  rw [pay3_eq, h]
  exact hi_mask q a

/-! ## Layout operations of the body, read at an entry -/

variable {α : Type}

/-- A `[512, 2048]` array cast to `[512, 32, 64]` reads, at `(r, d, b)`, the operand at `(r, 64 d + b)`. -/
theorem shapeCast_lanes_apply (x : S512x2048.Idx → α) (h : S512x2048.ShapeCasts S512x32x64)
    (r : Fin 512) (d : Fin 32) (b : Fin 64) :
    shapeCast S512x32x64 x h (ix3 r d b) = x (ix2 r (lane d b)) :=
  shapeCast_apply x h _ _ (by
    rw [Shape.rowMajor_val_two, Shape.rowMajor_val_three]
    show r.val * 2048 + (d.val * 64 + b.val) = (r.val * 32 + d.val) * 64 + b.val
    omega)

/-! ## The gathered factor row -/

/-- One-hot rows `A` (on the high part) times the factor table, re-laid as 32 coordinates by 64 lanes, weighted by the
    one-hot lanes `B` (on the low part) and summed over the lanes: coordinate `d` of the position's factor row. -/
theorem gather_apply (A : FVec Ideal S512x256 .bf16) (t : FVec Ideal S256x2048 .bf16) (B : FVec Ideal S512x64 .f32)
    (hc1 : S512x2048.ShapeCasts S512x32x64) (hc2 : S512x64.ShapeCasts S512x1x64)
    (hb : S512x1x64.Broadcasts S512x32x64) (hr : S512x32x64.Reduces [2] S512x32) (hφ : FKind.Formats .f32)
    (hacc : (0x00000000#32 : BitVec 32) = 0x00000000#32) (r : Fin 512) (d : Fin 32) (p : Fin 16384)
    (hA : ∀ a : Fin 256, A (ix2 r a) = if a = hi p then (1 : EReal) else 0)
    (hB : ∀ b : Fin 64, B (ix2 r b) = if b = lo p then (1 : EReal) else 0) :
    multiReduction (F := Ideal) .add [2] S512x32
        (mulf (shapeCast S512x32x64
            (matmul dot_S512x256_S256x2048_S512x2048_1_0_0_1_n_n none A t (constant (F := Ideal) S512x2048 .f32 0x00000000#32)) hc1)
          (broadcastTo S512x32x64 (shapeCast S512x1x64 B hc2) hb))
        0x00000000#32 hr hφ hacc (ix2 r d)
      = t (ix2 (hi p) (lane d (lo p))) := by
  refine (sumLast3_apply _ _ hr hφ hacc r d).trans ?_
  refine (Finset.sum_congr rfl fun b _ => ?_).trans (sum_mul_onehot (fun b => t (ix2 (hi p) (lane d b))) (lo p))
  refine (mulf_apply _ _ _).trans ?_
  refine congrArg₂ (· * ·) ?_ ?_
  · refine (shapeCast_lanes_apply _ hc1 r d b).trans ?_
    exact onehot_matmul_apply _ rfl rfl rfl rfl rfl rfl none A t r (hi p) hA (lane d b)
  · refine (broadcastTo_a1b_acb_apply _ hb r d b).trans ?_
    exact (shapeCast_ab_a1b_apply B hc2 r (0 : Fin 1) b).trans (hB b)

/-- Coordinate `d` of the factor row of the first column's position at row `r`. -/
theorem pay6_apply (v : Vec Ideal S512x1 .i32) (t : Vec Ideal S256x2048 .bf16) (r : Fin 512) (d : Fin 32)
    (p : Fin 16384) (h : v (ix2 r (0 : Fin 1)) = BitVec.ofNat 32 p.val) :
    k0_pay6 (F := Ideal) v t (ix2 r d) = t (ix2 (hi p) (lane d (lo p))) := by
  refine (gather_apply _ _ _ _ _ _ _ (.inl rfl) rfl r d p ?_ ?_).trans ?_
  · intro a
    exact hiMask_apply v _ r a p h
  · intro b
    exact pay5_apply v r b p h
  · exact congrFun (shapeCast_self t _) _

/-! ## The stored row -/

/-- What the body stores, at pair `r`: the product of the two gathered factor rows summed over the 32 coordinates,
    plus, when the two positions are the same, the squared deviation picked out of its table. -/
theorem pay1_apply (v3 v5 : IVec S512x1 32) (v12 : IVec S512x256 1) (v17 : FVec Ideal S512x64 .f32)
    (v28 : FVec Ideal S512x32 .f32) (v40 : FVec Ideal S512x64 .f32) (v43 : FVec Ideal S512x256 .bf16)
    (v44 : Vec Ideal S256x2048 .bf16) (v57 : Vec Ideal S256x64 .f32) (r : Fin 512) (p q : Fin 16384)
    (G : Fin 32 → EReal)
    (h3 : v3 (ix2 r (0 : Fin 1)) = BitVec.ofNat 32 p.val) (h5 : v5 (ix2 r (0 : Fin 1)) = BitVec.ofNat 32 q.val)
    (h12 : ∀ a : Fin 256, FloatOps.sitofp (F := Ideal) .f32 ((v12 (ix2 r a)).setWidth 32) = if a = hi p then (1 : EReal) else 0)
    (h17 : ∀ b : Fin 64, v17 (ix2 r b) = if b = lo p then (1 : EReal) else 0)
    (h28 : ∀ d : Fin 32, v28 (ix2 r d) = G d)
    (h40 : ∀ b : Fin 64, v40 (ix2 r b) = if b = lo q then (1 : EReal) else 0)
    (h43 : ∀ a : Fin 256, v43 (ix2 r a) = if a = hi q then (1 : EReal) else 0) :
    k0_pay1 (F := Ideal) v3 v5 v12 v17 v28 v40 v43 v44 v57 (ix2 (0 : Fin 1) r)
      = (∑ d : Fin 32, G d * v44 (ix2 (hi q) (lane d (lo q))))
        + (if p = q then v57 (ix2 (hi p) (lo p)) else 0) := by
  unfold k0_pay1
  refine (transpose_ix2_apply _ _ (0 : Fin 1) r).trans ?_
  refine (addf_apply _ _ _).trans ?_
  refine congrArg₂ (· + ·) ?_ ?_
  · refine (LibColumns.shapeCast_a_a1_apply _ _ r (0 : Fin 1)).trans ?_
    refine (sumLast2_apply _ _ _ (.inl rfl) rfl r).trans ?_
    refine Finset.sum_congr rfl fun d _ => ?_
    refine (mulf_apply _ _ _).trans ?_
    refine congrArg₂ (· * ·) (h28 d) ?_
    refine (gather_apply _ _ _ _ _ _ _ (.inl rfl) rfl r d q h43 h40).trans ?_
    exact congrFun (shapeCast_self v44 _) _
  · refine (mulf_apply _ _ _).trans ?_
    refine (congrArg₂ (· * ·) (?_ : _ = if p = q then (1 : EReal) else 0) (?_ : _ = v57 (ix2 (hi p) (lo p)))).trans ?_
    · show FloatOps.sitofp (F := Ideal) .f32
        ((IntOp.cmpi .eq (v3 (ix2 r (0 : Fin 1))) (v5 (ix2 r (0 : Fin 1)))).setWidth 32) = _
      rw [h3, h5]
      exact same_mask p q
    · refine (LibColumns.shapeCast_a_a1_apply _ _ r (0 : Fin 1)).trans ?_
      refine (sumLast2_apply _ _ _ (.inl rfl) rfl r).trans ?_
      refine (Finset.sum_congr rfl fun b _ => ?_).trans (sum_mul_onehot (fun b => v57 (ix2 (hi p) b)) (lo p))
      refine (mulf_apply _ _ _).trans ?_
      refine congrArg₂ (· * ·) ?_ (h17 b)
      refine (onehot_matmul_apply _ rfl rfl rfl rfl rfl rfl _ _ _ r (hi p) ?_ b).trans ?_
      · exact h12
      · exact congrFun (shapeCast_self v57 _) _
    · by_cases hpq : p = q
      · rw [if_pos hpq, if_pos hpq, one_mul]
      · rw [if_neg hpq, if_neg hpq, zero_mul]

/-- The origin of every rectangle the body reads or writes. -/
theorem origin_zero : (![0, 0] : Fin 2 → Nat) = fun _ => 0 := funext fun a => by fin_cases a <;> rfl

theorem out_apply (x0 x1 : Vec Ideal S512x1 .i32) (x2 : Vec Ideal S256x2048 .bf16) (x3 : Vec Ideal S256x64 .f32)
    (r : Fin 512) (p q : Fin 16384)
    (hp : x0 (ix2 r (0 : Fin 1)) = BitVec.ofNat 32 p.val) (hq : x1 (ix2 r (0 : Fin 1)) = BitVec.ofNat 32 q.val) :
    Gen.out0_4 (F := Ideal) x0 x1 x2 x3 (ix2 (0 : Fin 1) r)
      = (∑ d : Fin 32, x2 (ix2 (hi p) (lane d (lo p))) * x2 (ix2 (hi q) (lane d (lo q))))
        + (if p = q then x3 (ix2 (hi p) (lo p)) else 0) := by
  unfold Gen.out0_4
  rw [View.canon_unit_zero origin_zero]
  simp only [View.ld_unit_zero (S := S512x1) origin_zero, View.ld_unit_zero (S := S256x2048) origin_zero,
    View.ld_unit_zero (S := S256x64) origin_zero]
  exact pay1_apply (k0_pay2 (F := Ideal) x0) (k0_pay3 (F := Ideal) x1) (k0_pay4 (F := Ideal) x0)
    (k0_pay5 (F := Ideal) x0) (k0_pay6 (F := Ideal) x0 x2) (k0_pay7 (F := Ideal) x1) (k0_pay8 (F := Ideal) x1) x2 x3
    r p q (fun d => x2 (ix2 (hi p) (lane d (lo p))))
    ((congrFun (pay2_eq x0) _).trans hp) ((congrFun (pay3_eq x1) _).trans hq)
    (fun a => hiMask_apply x0 natLt_1_32 r a p hp)
    (fun b => pay5_apply x0 r b p hp)
    (fun d => pay6_apply x0 x2 r d p hp)
    (fun b => pay7_apply x1 r b q hq)
    (fun a => pay8_apply x1 r a q hq)

end Cert.KernelIdeal.Body

end
-- ==== Proof.KernelArr.lean ====
/-
  From the tile blocks to the whole result array, and the kernel's run.

  Grid point `t` (of 8192) reads rows `512 · t … 512 · t + 511` of the two index columns and the two whole tables,
  and writes columns `512 · t … 512 · t + 511` of the 1 × 4194304 output row. Column `512 · t + r` receives the
  covariance entry at the positions of the clipped words of pair `512 · t + r`: the blocks are restrictions of one
  whole-array function, they tile the row, and the final reshape to a flat array keeps the order.
-/
import proofs.«410167_j32238024524408_3_alg».proof.Proof.KernelHost
import proofs.«410167_j32238024524408_3_alg».proof.Proof.KernelBody

noncomputable section

namespace Cert.KernelIdeal.ArrVal

open Cert.KernelIdeal Cert.KernelIdeal.Gen Idealize.ShloMosaic Idealize.ShloMosaic.TcCoe Idealize.SL.Sem
open Idealize.ShloMosaic.StableHlo Idealize.ShloMosaic.ValueIdx Idealize.ShloMosaic.Pipeline
open Cert.KernelIdeal.HostVal Cert.Cov

variable (m : (ℓ : Loc nD τ sig) → Buf (Elt Ideal) ℓ) (ρ : Dev nD → PrngReg)

/-- The flat result: for each pair, the covariance entry at the positions of its two clipped words. -/
def GK (x y : IVec S4194304 32) (std : FVec Ideal S16384 .f32) (cf : FVec Ideal S16384x32 .f32) : FVec Ideal S4194304 .f32 :=
  fun i => entry std cf (clipPos (x i)) (clipPos (y i))

/-- The same as the one row of the kernel's output array. -/
def GA (x y : IVec S4194304 32) (std : FVec Ideal S16384 .f32) (cf : FVec Ideal S16384x32 .f32) : FVec Ideal S1x4194304 .f32 :=
  fun j => GK x y std cf (ix1 ⟨(j 1).val, idx2_lt1 j⟩)

/-- The printed index maps over the grid: the index columns and the output row move one block per point, the two
    tables stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

theorem t_lt (t : Fin cfg0.N) : t.val < 8192 := t.isLt.trans_eq N_0

/-- The pair a row of a tile stands for. -/
def pairOf (t : Fin cfg0.N) (r : Fin 512) : Fin 4194304 := ⟨t.val * 512 + r.val, by have := t_lt t; have := r.isLt; omega⟩

/-- The four input blocks at a point, at their literal types. -/
abbrev b0 (c : Dev nD) (t : Fin cfg0.N) : Vec Ideal S512x1 .i32 := iblk m c 0 t
abbrev b1 (c : Dev nD) (t : Fin cfg0.N) : Vec Ideal S512x1 .i32 := iblk m c 1 t
abbrev b2 (c : Dev nD) (t : Fin cfg0.N) : Vec Ideal S256x2048 .bf16 := iblk m c 2 t
abbrev b3 (c : Dev nD) (t : Fin cfg0.N) : Vec Ideal S256x64 .f32 := iblk m c 3 t

theorem b0_apply (c : Dev nD) (t : Fin cfg0.N) (r : Fin 512) :
    b0 m c t (ix2 r (0 : Fin 1)) = (V m c main_v2 : S4194304x1.Idx → BitVec 32) (ix2 (pairOf t r) (0 : Fin 1)) := by
  obtain ⟨e00, e01, -⟩ := idx_facts t
  show (V m c main_v2 : S4194304x1.Idx → BitVec 32) (((cfg0.win 0).blk t).view.emb (ix2 r (0 : Fin 1))) = _
  refine congrArg (V m c main_v2 : S4194304x1.Idx → BitVec 32) (funext fun a => Fin.ext ?_)
  match a with
  | ⟨0, _⟩ => show win0_0.index t (0 : Fin 2) * 512 + 1 * r.val = t.val * 512 + r.val; rw [e00]; omega
  | ⟨1, _⟩ => show win0_0.index t (1 : Fin 2) * 1 + 1 * 0 = 0; rw [e01]

theorem b1_apply (c : Dev nD) (t : Fin cfg0.N) (r : Fin 512) :
    b1 m c t (ix2 r (0 : Fin 1)) = (V m c main_v3 : S4194304x1.Idx → BitVec 32) (ix2 (pairOf t r) (0 : Fin 1)) := by
  obtain ⟨-, -, e10, e11, -⟩ := idx_facts t
  show (V m c main_v3 : S4194304x1.Idx → BitVec 32) (((cfg0.win 1).blk t).view.emb (ix2 r (0 : Fin 1))) = _
  refine congrArg (V m c main_v3 : S4194304x1.Idx → BitVec 32) (funext fun a => Fin.ext ?_)
  match a with
  | ⟨0, _⟩ => show win0_1.index t (0 : Fin 2) * 512 + 1 * r.val = t.val * 512 + r.val; rw [e10]; omega
  | ⟨1, _⟩ => show win0_1.index t (1 : Fin 2) * 1 + 1 * 0 = 0; rw [e11]

theorem b2_apply (c : Dev nD) (t : Fin cfg0.N) (a : Fin 256) (l : Fin 2048) :
    b2 m c t (ix2 a l) = (V m c main_v9 : S256x2048.Idx → EReal) (ix2 a l) := by
  obtain ⟨-, -, -, -, e20, e21, -⟩ := idx_facts t
  show (V m c main_v9 : S256x2048.Idx → EReal) (((cfg0.win 2).blk t).view.emb (ix2 a l)) = _
  refine congrArg (V m c main_v9 : S256x2048.Idx → EReal) (funext fun k => Fin.ext ?_)
  match k with
  | ⟨0, _⟩ => show win0_2.index t (0 : Fin 2) * 256 + 1 * a.val = a.val; rw [e20]; omega
  | ⟨1, _⟩ => show win0_2.index t (1 : Fin 2) * 2048 + 1 * l.val = l.val; rw [e21]; omega

theorem b3_apply (c : Dev nD) (t : Fin cfg0.N) (a : Fin 256) (b : Fin 64) :
    b3 m c t (ix2 a b) = (V m c main_v5 : S256x64.Idx → EReal) (ix2 a b) := by
  obtain ⟨-, -, -, -, -, -, e30, e31, -⟩ := idx_facts t
  show (V m c main_v5 : S256x64.Idx → EReal) (((cfg0.win 3).blk t).view.emb (ix2 a b)) = _
  refine congrArg (V m c main_v5 : S256x64.Idx → EReal) (funext fun k => Fin.ext ?_)
  match k with
  | ⟨0, _⟩ => show win0_3.index t (0 : Fin 2) * 256 + 1 * a.val = a.val; rw [e30]; omega
  | ⟨1, _⟩ => show win0_3.index t (1 : Fin 2) * 64 + 1 * b.val = b.val; rw [e31]; omega

/-- What the body leaves at column `r` of the output block at point `t`: the entry of pair `512 · t + r`. -/
theorem out_at (c : Dev nD) (t : Fin cfg0.N) (r : Fin 512) :
    out0_4 (F := Ideal) (b0 m c t) (b1 m c t) (b2 m c t) (b3 m c t) (ix2 (0 : Fin 1) r)
      = GK (xs m c) (ys m c) (stds m c) (cfs m c) (ix1 (pairOf t r)) := by
  have hp : b0 m c t (ix2 r (0 : Fin 1)) = BitVec.ofNat 32 (clipPos (xs m c (ix1 (pairOf t r)))).val := by
    rw [b0_apply, V_v2_apply]; exact clip_eq_ofNat _
  have hq : b1 m c t (ix2 r (0 : Fin 1)) = BitVec.ofNat 32 (clipPos (ys m c (ix1 (pairOf t r)))).val := by
    rw [b1_apply, V_v3_apply]; exact clip_eq_ofNat _
  refine (Cert.KernelIdeal.Body.out_apply (b0 m c t) (b1 m c t) (b2 m c t) (b3 m c t) r _ _ hp hq).trans ?_
  unfold GK Cert.Cov.entry
  generalize clipPos (xs m c (ix1 (pairOf t r))) = p
  generalize clipPos (ys m c (ix1 (pairOf t r))) = q
  congr 1
  · refine Finset.sum_congr rfl fun d _ => ?_
    rw [b2_apply, b2_apply, V_v9_apply, V_v9_apply, join_hi_lo, join_hi_lo]
  · by_cases h : p = q
    · rw [if_pos h, if_pos h, b3_apply, V_v5_apply, join_hi_lo]
    · rw [if_neg h, if_neg h]

theorem hz : (![0, 0] : Fin 2 → Nat) = fun _ => 0 := funext fun a => by fin_cases a <;> rfl

/-- WHAT POINT `t` WRITES BACK is block `t` of the output row. -/
theorem flushed_eq (c : Dev nD) (t : Fin cfg0.N) :
    (dats m 0 c).flushed 4 t = ((cfg0.win 4).blk t).view.read (Elt Ideal) (GA (xs m c) (ys m c) (stds m c) (cfs m c)) := by
  obtain ⟨-, -, -, -, -, -, -, -, e40, e41⟩ := idx_facts t
  show (cfg0.win 4).cut (grid0.coords t) ((dats m 0 c).after 4 t) = _
  rw [after0_4]
  funext j
  show out0_4 (F := Ideal) (b0 m c t) (b1 m c t) (b2 m c t) (b3 m c t) j
    = GA (xs m c) (ys m c) (stds m c) (cfs m c) (((cfg0.win 4).blk t).view.emb j)
  obtain ⟨z, r, rfl⟩ : ∃ (z : Fin 1) (r : Fin 512), j = ix2 z r := ⟨j 0, j 1, eq_ix2 j⟩
  obtain rfl : z = 0 := Subsingleton.elim _ _
  rw [out_at]
  unfold GA
  refine congrArg (GK (xs m c) (ys m c) (stds m c) (cfs m c)) (funext fun a => Fin.ext ?_)
  match a with
  | ⟨0, _⟩ => show t.val * 512 + r.val = win0_4.index t (1 : Fin 2) * 512 + 1 * r.val; rw [e41]; omega

/-- An index of the row is in point `t`'s block iff each coordinate is in the block's range. -/
theorem mem_blk (t : Fin cfg0.N) (i : S1x4194304.Idx) :
    i ∈ ((cfg0.win 4).blk t).view.set ↔ ∀ a : Fin 2, win0_4.index t a * S1x512.size a ≤ (i a).val ∧ (i a).val < win0_4.index t a * S1x512.size a + S1x512.size a := by
  show i ∈ ((View.whole main_v10).slice (win0_4.rect t)).set ↔ _
  rw [View.set_slice_whole, Rect.mem_set_unit]
  exact Iff.rfl

/-- The blocks tile the row: column `n` is in the block of point `n / 512`. -/
theorem cover (i : S1x4194304.Idx) : ∃ t : Fin cfg0.N, (cfg0.win 4).flush t = true ∧ i ∈ ((cfg0.win 4).blk t).view.set := by
  have h0 : (i 0).val < 1 := (i 0).isLt
  have h1 : (i 1).val < 4194304 := (i 1).isLt
  let t : Fin cfg0.N := ⟨(i 1).val / 512, by rw [show cfg0.N = 8192 from N_0]; omega⟩
  obtain ⟨-, -, -, -, -, -, -, -, e40, e41⟩ := idx_facts t
  refine ⟨t, flush0_4 t, ?_⟩
  rw [mem_blk]
  intro a
  match a with
  | ⟨0, _⟩ => show win0_4.index t (0 : Fin 2) * 1 ≤ (i 0).val ∧ (i 0).val < win0_4.index t (0 : Fin 2) * 1 + 1; rw [e40]; omega
  | ⟨1, _⟩ =>
    show win0_4.index t (1 : Fin 2) * 512 ≤ (i 1).val ∧ (i 1).val < win0_4.index t (1 : Fin 2) * 512 + 512
    rw [e41]; show (i 1).val / 512 * 512 ≤ (i 1).val ∧ (i 1).val < (i 1).val / 512 * 512 + 512; omega

/-- THE OUTPUT ROW after the run. -/
theorem final (c : Dev nD) : (dats m 0 c).arrAt 4 cfg0.N = GA (xs m c) (ys m c) (stds m c) (cfs m c) :=
  (dats m 0 c).arrAt_eq_of_cover 4 (GA (xs m c) (ys m c) (stds m c) (cfs m c)) (fun t _ => flushed_eq m c t) cover

/-- The flat result array after the reshape that follows the region. -/
theorem tail_v11 (c : Dev nD) :
    (Pipeline.afterTail₀ cfgs (dats m) 0 (V0 m) [hostOps1] c main_v11 : S4194304.Idx → EReal)
      = GK (xs m c) (ys m c) (stds m c) (cfs m c) := by
  have e : (Pipeline.afterTail₀ cfgs (dats m) 0 (V0 m) [hostOps1] c main_v11 : S4194304.Idx → EReal)
      = shapeCast S4194304 (GA (xs m c) (ys m c) (stds m c) (cfs m c)) shapeCasts_S1x4194304_S4194304 := by
    unfold Pipeline.afterTail₀
    show StableHlo.after hostOps1 _ (Proc.devRef .tc main_v11) = _
    after_results
    have hw : (Pipeline.withArrays (cfgs 0).spec c (V0 m c) (fun w => (dats m 0 c).arrAt w (cfgs 0).N)
        (Proc.devRef .tc main_v10) : S1x4194304.Idx → EReal) = GA (xs m c) (ys m c) (stds m c) (cfs m c) :=
      (Pipeline.withArrays_arr spec0 launch0.win.arr_inj c _ _ 4).trans (final m c)
    exact congrArg (fun a : S1x4194304.Idx → EReal => shapeCast S4194304 a shapeCasts_S1x4194304_S4194304) hw
  rw [e]
  funext i
  obtain ⟨n, rfl⟩ : ∃ n : Fin 4194304, i = ix1 n := ⟨i 0, eq_ix1 i⟩
  refine (shapeCast_apply _ _ (ix1 n) (ix2 (0 : Fin 1) n) ?_).trans ?_
  · rw [Shape.rowMajor_val_one, Shape.rowMajor_val_two]
    show 0 * 4194304 + n.val = n.val
    omega
  · rfl

/-- THE KERNEL'S RUN: every execution ends with the result array at the entries of the clipped pairs, the
    arguments unchanged. -/
theorem run : θ_run defs (onTc (τ := τ) (main (F := Ideal))) ⟨m, fun _ => 0, ρ⟩ fun r => ∀ c : Dev nD,
      r.2.mem ((c.tc : Thread nD τ).loc main_v11) = GK (xs m c) (ys m c) (stds m c) (cfs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v11 (Pipeline.mem_restRefs_of main_v11 (by decide) (by decide))).trans (tail_v11 m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c)⟩)
    (run_main m ρ)

end Cert.KernelIdeal.ArrVal

end
-- ==== Proof.RefTerm.lean ====
/-
  What the reference computes, as one term of its four argument arrays.

  The 16384 × 16384 covariance table is the product of the factor matrix with its transpose plus the diagonal
  matrix of squared deviations (a select on "row index = column index" between the squared deviations broadcast
  along rows and zero). Each of the two index arrays is wrapped (a negative word moved up by 16384); the two are
  laid side by side as the columns of a 4194304 × 2 array of start indices, and the result is the table gathered
  at those pairs.
-/
import proofs.«410167_j32238024524408_3_alg».proof.Proof.Gen.ReferenceIdeal

noncomputable section

namespace Cert.ReferenceIdeal.RefValue

open Cert.ReferenceIdeal Cert.ReferenceIdeal.Gen Idealize.ShloMosaic

variable {F : FTy → Type} [FloatOps F]

/-- An index array with its negative words moved up by the number of categories. -/
def wrapped (x : IVec S4194304 32) : IVec S4194304 32 :=
  select (cmpi .slt x (broadcastInDim S4194304 ![] bcast_S_S4194304 (constantI S_ 32 0#32)))
    (addi x (broadcastInDim S4194304 ![] bcast_S_S4194304 (constantI S_ 32 16384#32))) x

/-- The two wrapped index arrays as the two columns of the array of start indices. -/
def pairs (x y : IVec S4194304 32) : IVec S4194304x2 32 :=
  concatenate S4194304x2 1
    [⟨S4194304x1, broadcastInDim S4194304x1 ![0] bcast_S4194304_S4194304x1_0 (wrapped x)⟩,
     ⟨S4194304x1, broadcastInDim S4194304x1 ![0] bcast_S4194304_S4194304x1_0 (wrapped y)⟩]
    concatenates_S4194304x1_S4194304x1_S4194304x2_d1

/-- The diagonal matrix of a vector: the vector along rows where row index = column index, zero elsewhere. -/
def diag (s : FVec F S16384 .f32) : FVec F S16384x16384 .f32 :=
  select
    (cmpi .eq (addi (iotaInDim S16384x16384 32 0) (broadcastInDim S16384x16384 ![] bcast_S_S16384x16384 (constantI S_ 32 0#32)))
      (iotaInDim S16384x16384 32 1))
    (broadcastInDim S16384x16384 ![0, 1] bcast_S16384x1_S16384x16384_0_1
      (broadcastInDim S16384x1 ![0] bcast_S16384_S16384x1_0
        (pad S16384 ![0] ![0] ![0] s (constant S_ .f32 0x00000000#32) pads_S16384_S16384_000 h_S_)))
    (broadcastInDim S16384x16384 ![] bcast_S_S16384x16384 (constant S_ .f32 0x00000000#32))

/-- The covariance table: factor matrix times its transpose, plus the diagonal of squared deviations. -/
def table (std : FVec F S16384 .f32) (cf : FVec F S16384x32 .f32) : FVec F S16384x16384 .f32 :=
  addf
    (Host.dotGeneral dot_S16384x32_S32x16384_S16384x16384_1_0_0_1_n_n none cf
      (transpose S32x16384 [1, 0] cf transposes_S16384x32_S32x16384_1_0))
    (diag (mulf std std))

/-- The reference's result: the table gathered at the pairs of wrapped indices. -/
def term (x y : IVec S4194304 32) (std : FVec F S16384 .f32) (cf : FVec F S16384x32 .f32) : FVec F S4194304 .f32 :=
  Host.gather gather_S16384x16384_S4194304x2_S4194304_n_01_n_n_01_1_11 (table std cf) (pairs x y)

end Cert.ReferenceIdeal.RefValue

end
-- ==== Proof.RefRun.lean ====
/-
  The reference's run: every execution ends with the result array at the reference's term of the argument arrays.
-/
import proofs.«410167_j32238024524408_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The first 33 of @main's 35 operations in order, the two calls unfolded at their sites: three of @main's own, the
    ten of the diagonal function over its call's buffers, the three of the selecting function it calls over that
    call's buffers, then @main's next seventeen, up to the two columns of start indices. -/
abbrev opsA : List (HloOp τ sig (Elt F)) :=
  [ unary main_arg3 main_v0 ((transpose S32x16384 [1, 0] · transposes_S16384x32_S32x16384_1_0) : (⟨S16384x32, .f32⟩ : BufTy).Contents (Elt F) → (⟨S32x16384, .f32⟩ : BufTy).Contents (Elt F)),
    binary main_arg3 main_v0 main_v1 ((fun l r => Host.dotGeneral dot_S16384x32_S32x16384_S16384x16384_1_0_0_1_n_n none l r) : (⟨S16384x32, .f32⟩ : BufTy).Contents (Elt F) → (⟨S32x16384, .f32⟩ : BufTy).Contents (Elt F) → (⟨S16384x16384, .f32⟩ : BufTy).Contents (Elt F)),
    binary main_arg2 main_arg2 main_v2 (mulf : (⟨S16384, .f32⟩ : BufTy).Contents (Elt F) → (⟨S16384, .f32⟩ : BufTy).Contents (Elt F) → (⟨S16384, .f32⟩ : BufTy).Contents (Elt F)),
    TRef.nullary main_call0.cst (constant S_ .f32 0x00000000#32),
    TRef.binary (.of main_v2) main_call0.cst main_call0.v0 (fun x v => pad S16384 ![0] ![0] ![0] x v pads_S16384_S16384_000 h_S_),
    TRef.nullary main_call0.v1 (iotaInDim S16384x16384 32 0),
    TRef.nullary main_call0.v2 (iotaInDim S16384x16384 32 1),
    TRef.nullary main_call0.c (constantI S_ 32 0#32),
    TRef.unary main_call0.c main_call0.v3 (broadcastInDim S16384x16384 ![] bcast_S_S16384x16384),
    TRef.binary main_call0.v1 main_call0.v3 main_call0.v4 addi,
    TRef.binary main_call0.v4 main_call0.v2 main_call0.v5 (cmpi .eq),
    TRef.unary main_call0.v0 main_call0.v6 (broadcastInDim S16384x1 ![0] bcast_S16384_S16384x1_0),
    TRef.nullary main_call0.cst_0 (constant S_ .f32 0x00000000#32),
    TRef.unary main_call0.v6 main_call0.call0.v0 (broadcastInDim S16384x16384 ![0, 1] bcast_S16384x1_S16384x16384_0_1),
    TRef.unary main_call0.cst_0 main_call0.call0.v1 (broadcastInDim S16384x16384 ![] bcast_S_S16384x16384),
    TRef.ternary main_call0.v5 main_call0.call0.v0 main_call0.call0.v1 main_call0.call0.v2 select,
    binary main_v1 main_v3 main_v4 (addf : (⟨S16384x16384, .f32⟩ : BufTy).Contents (Elt F) → (⟨S16384x16384, .f32⟩ : BufTy).Contents (Elt F) → (⟨S16384x16384, .f32⟩ : BufTy).Contents (Elt F)),
    nullary main_c (constantI S_ 32 0#32),
    unary main_c main_v5 (broadcastInDim S4194304 ![] bcast_S_S4194304 : (⟨S_, .i32⟩ : BufTy).Contents (Elt F) → (⟨S4194304, .i32⟩ : BufTy).Contents (Elt F)),
    binary main_arg0 main_v5 main_v6 (cmpi .slt : (⟨S4194304, .i32⟩ : BufTy).Contents (Elt F) → (⟨S4194304, .i32⟩ : BufTy).Contents (Elt F) → (⟨S4194304, .i1⟩ : BufTy).Contents (Elt F)),
    nullary main_c_0 (constantI S_ 32 16384#32),
    unary main_c_0 main_v7 (broadcastInDim S4194304 ![] bcast_S_S4194304 : (⟨S_, .i32⟩ : BufTy).Contents (Elt F) → (⟨S4194304, .i32⟩ : BufTy).Contents (Elt F)),
    binary main_arg0 main_v7 main_v8 (addi : (⟨S4194304, .i32⟩ : BufTy).Contents (Elt F) → (⟨S4194304, .i32⟩ : BufTy).Contents (Elt F) → (⟨S4194304, .i32⟩ : BufTy).Contents (Elt F)),
    ternary main_v6 main_v8 main_arg0 main_v9 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    nullary main_c_1 (constantI S_ 32 0#32),
    unary main_c_1 main_v10 (broadcastInDim S4194304 ![] bcast_S_S4194304 : (⟨S_, .i32⟩ : BufTy).Contents (Elt F) → (⟨S4194304, .i32⟩ : BufTy).Contents (Elt F)),
    binary main_arg1 main_v10 main_v11 (cmpi .slt : (⟨S4194304, .i32⟩ : BufTy).Contents (Elt F) → (⟨S4194304, .i32⟩ : BufTy).Contents (Elt F) → (⟨S4194304, .i1⟩ : BufTy).Contents (Elt F)),
    nullary main_c_2 (constantI S_ 32 16384#32),
    unary main_c_2 main_v12 (broadcastInDim S4194304 ![] bcast_S_S4194304 : (⟨S_, .i32⟩ : BufTy).Contents (Elt F) → (⟨S4194304, .i32⟩ : BufTy).Contents (Elt F)),
    binary main_arg1 main_v12 main_v13 (addi : (⟨S4194304, .i32⟩ : BufTy).Contents (Elt F) → (⟨S4194304, .i32⟩ : BufTy).Contents (Elt F) → (⟨S4194304, .i32⟩ : BufTy).Contents (Elt F)),
    ternary main_v11 main_v13 main_arg1 main_v14 (select : (⟨S4194304, .i1⟩ : BufTy).Contents (Elt F) → (⟨S4194304, .i32⟩ : BufTy).Contents (Elt F) → (⟨S4194304, .i32⟩ : BufTy).Contents (Elt F) → (⟨S4194304, .i32⟩ : BufTy).Contents (Elt F)),
    unary main_v9 main_v15 (broadcastInDim S4194304x1 ![0] bcast_S4194304_S4194304x1_0 : (⟨S4194304, .i32⟩ : BufTy).Contents (Elt F) → (⟨S4194304x1, .i32⟩ : BufTy).Contents (Elt F)),
    unary main_v14 main_v16 (broadcastInDim S4194304x1 ![0] bcast_S4194304_S4194304x1_0 : (⟨S4194304, .i32⟩ : BufTy).Contents (Elt F) → (⟨S4194304x1, .i32⟩ : BufTy).Contents (Elt F)) ]

/-- The last two: the columns laid side by side, and the gather. -/
abbrev opsB : List (HloOp τ sig (Elt F)) :=
  [ binary main_v15 main_v16 main_v17 ((fun a b => concatenate S4194304x2 1 [⟨S4194304x1, a⟩, ⟨S4194304x1, b⟩] concatenates_S4194304x1_S4194304x1_S4194304x2_d1) : (⟨S4194304x1, .i32⟩ : BufTy).Contents (Elt F) → (⟨S4194304x1, .i32⟩ : BufTy).Contents (Elt F) → (⟨S4194304x2, .i32⟩ : BufTy).Contents (Elt F)),
    binary main_v4 main_v17 main_v18 ((fun x i => Host.gather gather_S16384x16384_S4194304x2_S4194304_n_01_n_n_01_1_11 x i) : (⟨S16384x16384, .f32⟩ : BufTy).Contents (Elt F) → (⟨S4194304x2, .i32⟩ : BufTy).Contents (Elt F) → (⟨S4194304, .f32⟩ : BufTy).Contents (Elt F)) ]

/-- @main's 35 operations, in order. -/
abbrev ops : List (HloOp τ sig (Elt F)) := opsA ++ opsB

set_option maxRecDepth 4096 in
/-- @main is that straight line: the two functions' definitions unfolded at their calls, and sequencing reassociated. -/
theorem main_eq (c : Dev nD) : main (F := F) c = seq ops := by
  simp only [main, fn_diag.body, fn_where.body, ops, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem opsA_sub : (opsA : List (HloOp τ sig (Elt F))).Forall fun op => op.bufs ⊆ tcRefs τ sig :=
  ⟨unary_bufs_sub .., binary_bufs_sub .., binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..,
    binary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub ..⟩

theorem opsB_sub : (opsB : List (HloOp τ sig (Elt F))).Forall fun op => op.bufs ⊆ tcRefs τ sig :=
  ⟨binary_bufs_sub .., binary_bufs_sub ..⟩

theorem ops_sub : (ops : List (HloOp τ sig (Elt F))).Forall fun op => op.bufs ⊆ tcRefs τ sig :=
  List.forall_append.mpr ⟨opsA_sub, opsB_sub⟩

/-- Every TensorCore buffer after any execution: the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The fold over two lines in a row. -/
theorem after_app : ∀ (l₁ l₂ : List (HloOp τ sig (Elt F))) (V : Valuation τ sig (Elt F)),
    after (l₁ ++ l₂) V = after l₂ (after l₁ V)
  | [], _, _ => rfl
  | _ :: l₁, l₂, V => after_app l₁ l₂ _

/-- After the first 33 operations the sum buffer holds the covariance table of the last two arguments: each
    operation's result read at its own buffer, a typed reference's casts the identity at these literal references. -/
theorem A_v4 (V : Valuation τ sig (Elt F)) :
    after opsA V (Proc.devRef .tc main_v4) = table (F := F) (V (Proc.devRef .tc main_arg2)) (V (Proc.devRef .tc main_arg3)) := by
  after_results_simp
  simp only [TRef.ofBuf, TRef.toBuf, cast_eq]
  rfl

/-- … the first column holds the first index array, wrapped. -/
theorem A_v15 (V : Valuation τ sig (Elt F)) :
    after opsA V (Proc.devRef .tc main_v15)
      = broadcastInDim S4194304x1 ![0] bcast_S4194304_S4194304x1_0 (wrapped (V (Proc.devRef .tc main_arg0))) := by
  after_results_simp
  rfl

/-- … the second column holds the second index array, wrapped. -/
theorem A_v16 (V : Valuation τ sig (Elt F)) :
    after opsA V (Proc.devRef .tc main_v16)
      = broadcastInDim S4194304x1 ![0] bcast_S4194304_S4194304x1_0 (wrapped (V (Proc.devRef .tc main_arg1))) := by
  after_results_simp
  rfl

/-- The result buffer after all 35: the table gathered at the two columns side by side. -/
theorem v18_eq (V : Valuation τ sig (Elt F)) :
    after ops V (Proc.devRef .tc main_v18)
      = term (F := F) (V (Proc.devRef .tc main_arg0)) (V (Proc.devRef .tc main_arg1)) (V (Proc.devRef .tc main_arg2))
          (V (Proc.devRef .tc main_arg3)) := by
  rw [after_app]
  generalize hW : after opsA V = W
  after_results
  rw [← hW, A_v4, A_v15, A_v16]
  rfl

/-- No operation writes an argument's buffer. -/
theorem arg0_eq (V : Valuation τ sig (Elt F)) : after ops V (Proc.devRef .tc main_arg0) = V (Proc.devRef .tc main_arg0) := by
  rw [after_app]; after_results_simp
theorem arg1_eq (V : Valuation τ sig (Elt F)) : after ops V (Proc.devRef .tc main_arg1) = V (Proc.devRef .tc main_arg1) := by
  rw [after_app]; after_results_simp
theorem arg2_eq (V : Valuation τ sig (Elt F)) : after ops V (Proc.devRef .tc main_arg2) = V (Proc.devRef .tc main_arg2) := by
  rw [after_app]; after_results_simp
theorem arg3_eq (V : Valuation τ sig (Elt F)) : after ops V (Proc.devRef .tc main_arg3) = V (Proc.devRef .tc main_arg3) := by
  rw [after_app]; after_results_simp

/-- On every device, for any float values, from any memory with zero counters: every weakly fair execution of
    @main terminates with the result buffer at the reference's term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = term (F := F) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v18).trans (v18_eq _),
      (h c main_arg0).trans (arg0_eq _),
      (h c main_arg1).trans (arg1_eq _),
      (h c main_arg2).trans (arg2_eq _),
      (h c main_arg3).trans (arg3_eq _)⟩)
    (run_all m ρ)

end Cert.ReferenceIdeal.RefValue

end
-- ==== Proof.LibConcatCols.lean ====
/-
  Two arrays of rows laid side by side, read at an entry.

  Joining an n × w₁ array and an n × w₂ array along the column axis gives an n × w array whose entry (r, k) is the
  first array's entry (r, k) for k < w₁ and the second array's entry (r, k − w₁) from column w₁ on.
-/
import Idealize.ShloMosaic.Lib.Pipeline.Value
import Idealize.ShloMosaic.Lib.ValueIdx

noncomputable section

namespace Cert.LibConcatCols

open Idealize.ShloMosaic Idealize.ShloMosaic.ValueIdx

variable {α : Type} {n w₁ w₂ w : Nat}

/-- A column of the joined array left of the seam is the first array's column. -/
theorem concat_left (x : (⟨2, ![n, w₁]⟩ : Shape).Idx → α) (y : (⟨2, ![n, w₂]⟩ : Shape).Idx → α)
    (h : Shape.Concatenates [(⟨2, ![n, w₁]⟩ : Shape), ⟨2, ![n, w₂]⟩] ⟨2, ![n, w]⟩ 1) (r : Fin n) (k : Fin w₁) (hk : k.val < w) :
    concatenate ⟨2, ![n, w]⟩ 1 [⟨⟨2, ![n, w₁]⟩, x⟩, ⟨⟨2, ![n, w₂]⟩, y⟩] h (ix2 r ⟨k.val, hk⟩) = x (ix2 r k) :=
  concatenate_pair_apply_left 1 x y h (ix2 r ⟨k.val, hk⟩) rfl (ix2 r k) (fun b => match b with
    | ⟨0, _⟩ => rfl
    | ⟨1, _⟩ => rfl)

/-- A column of the joined array from the seam on is the second array's column, the first array's width less. -/
theorem concat_right (x : (⟨2, ![n, w₁]⟩ : Shape).Idx → α) (y : (⟨2, ![n, w₂]⟩ : Shape).Idx → α)
    (h : Shape.Concatenates [(⟨2, ![n, w₁]⟩ : Shape), ⟨2, ![n, w₂]⟩] ⟨2, ![n, w]⟩ 1) (r : Fin n) (k : Fin w₂) (hk : w₁ + k.val < w) :
    concatenate ⟨2, ![n, w]⟩ 1 [⟨⟨2, ![n, w₁]⟩, x⟩, ⟨⟨2, ![n, w₂]⟩, y⟩] h (ix2 r ⟨w₁ + k.val, hk⟩) = y (ix2 r k) :=
  concatenate_pair_apply_right 1 x y h (ix2 r ⟨w₁ + k.val, hk⟩) rfl rfl (ix2 r k) (fun b hb => match b, hb with
    | ⟨0, _⟩, _ => rfl
    | ⟨1, _⟩, hb => absurd rfl hb) (by show k.val + w₁ = w₁ + k.val; omega)

end Cert.LibConcatCols

end
-- ==== Proof.LibGatherPair.lean ====
/-
  A two-axis table read at a LIST of points, each named by a pair of start indices, at an index.

  `x[rows, cols]` of a table `x : [M, N]` with two index arrays `rows, cols : [R]` (NumPy's pairing of two integer
  index arrays of rank one) lowers to a gather whose start indices `[R, 2]` carry the pair on their last axis, both
  operand axes collapsed, every slice one element. The result element at `r` is the table's element at row
  `idx[r, 0]` and column `idx[r, 1]`, each component read as a signed integer and clamped into its axis. Stated for
  any record with these dimension numbers, so it applies to a program's printed record as it stands.
-/
import Idealize.ShloMosaic.Lib.ValueIdx

noncomputable section

namespace Idealize.ShloMosaic.GatherPair

open Idealize.ShloMosaic Idealize.ShloMosaic.ValueIdx

section GatherPair

variable {α : Type}

/-- The dimension numbers of the pair gather: operand [M, N], start indices [R, 2], result [R]. -/
abbrev pairDims (M N R : Nat)
    (wf : GatherDims.WF ⟨2, ![M, N]⟩ ⟨2, ![R, 2]⟩ ⟨1, ![R]⟩ [] [0, 1] [] [0, 1] [] 1 ![1, 1]) :
    GatherDims ⟨2, ![M, N]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

theorem mem_pair_zero : (0 : Fin 2) ∈ ([0, 1] : List (Fin 2)) := by decide
theorem mem_pair_one : (1 : Fin 2) ∈ ([0, 1] : List (Fin 2)) := by decide

/-- On the first operand axis the index is the pair's first component, clamped. -/
theorem pair_axis0 {M N R w : Nat}
    (wf : GatherDims.WF ⟨2, ![M, N]⟩ ⟨2, ![R, 2]⟩ ⟨1, ![R]⟩ [] [0, 1] [] [0, 1] [] 1 ![1, 1])
    (idx : IVec ⟨2, ![R, 2]⟩ w) (j : (⟨1, ![R]⟩ : Shape).Idx) :
    ((pairDims M N R wf).operandIdx j idx 0).val = min (idx (ix2 (j 0) (0 : Fin 2))).toInt.toNat (M - 1) := by
  show (pairDims M N R wf).start j idx 0 + (pairDims M N R wf).batchCoord j 0 + (pairDims M N R wf).offCoord j 0 = _
  rw [GatherDims.batchCoord_eq_zero _ _ _ List.not_mem_nil,
    GatherDims.offCoord_eq_zero _ _ _ (fun h => ((GatherDims.mem_sKept _ _).mp h).1 mem_pair_zero)]
  simp only [Nat.add_zero]
  unfold GatherDims.start
  rw [dif_pos (show (0 : Fin 2) ∈ (pairDims M N R wf).startIndexMap from mem_pair_zero)]
  have hsi : (pairDims M N R wf).siIdx j ⟨List.idxOf (0 : Fin 2) (pairDims M N R wf).startIndexMap,
      List.idxOf_lt_length_iff.2 mem_pair_zero⟩ = ix2 (j 0) (0 : Fin 2) := by
    funext b; refine Fin.ext ?_
    match b with
    | ⟨0, _⟩ => rfl
    | ⟨1, _⟩ => rfl
  rw [hsi]
  rfl

/-- On the second operand axis it is the pair's second component, clamped. -/
theorem pair_axis1 {M N R w : Nat}
    (wf : GatherDims.WF ⟨2, ![M, N]⟩ ⟨2, ![R, 2]⟩ ⟨1, ![R]⟩ [] [0, 1] [] [0, 1] [] 1 ![1, 1])
    (idx : IVec ⟨2, ![R, 2]⟩ w) (j : (⟨1, ![R]⟩ : Shape).Idx) :
    ((pairDims M N R wf).operandIdx j idx 1).val = min (idx (ix2 (j 0) (1 : Fin 2))).toInt.toNat (N - 1) := by
  show (pairDims M N R wf).start j idx 1 + (pairDims M N R wf).batchCoord j 1 + (pairDims M N R wf).offCoord j 1 = _
  rw [GatherDims.batchCoord_eq_zero _ _ _ List.not_mem_nil,
    GatherDims.offCoord_eq_zero _ _ _ (fun h => ((GatherDims.mem_sKept _ _).mp h).1 mem_pair_one)]
  simp only [Nat.add_zero]
  unfold GatherDims.start
  rw [dif_pos (show (1 : Fin 2) ∈ (pairDims M N R wf).startIndexMap from mem_pair_one)]
  have hsi : (pairDims M N R wf).siIdx j ⟨List.idxOf (1 : Fin 2) (pairDims M N R wf).startIndexMap,
      List.idxOf_lt_length_iff.2 mem_pair_one⟩ = ix2 (j 0) (1 : Fin 2) := by
    funext b; refine Fin.ext ?_
    match b with
    | ⟨0, _⟩ => rfl
    | ⟨1, _⟩ => rfl
  rw [hsi]
  rfl

/-- The pair gather at r: the table at row idx[r, 0] and column idx[r, 1], each read signed and clamped into its axis.
    Stated for any record with these dimension numbers. -/
theorem gather_pair_apply {M N R w : Nat} (hM : 0 < M) (hN : 0 < N)
    (d : GatherDims ⟨2, ![M, N]⟩ ⟨2, ![R, 2]⟩ ⟨1, ![R]⟩)
    (hod : d.offsetDims = []) (hcd : d.collapsedSliceDims = [0, 1]) (hob : d.operandBatchingDims = [])
    (hsb : d.startIndicesBatchingDims = []) (hsm : d.startIndexMap = [0, 1]) (hiv : d.indexVectorDim = 1)
    (hss : d.sliceSizes = ![1, 1])
    (x : (⟨2, ![M, N]⟩ : Shape).Idx → α) (idx : IVec ⟨2, ![R, 2]⟩ w) (r : Fin R) :
    Host.gather d x idx (ix1 r)
      = x (ix2 (⟨min (idx (ix2 r (0 : Fin 2))).toInt.toNat (M - 1), by omega⟩ : Fin M)
              (⟨min (idx (ix2 r (1 : Fin 2))).toInt.toNat (N - 1), by omega⟩ : Fin N)) := by
  obtain ⟨od, cd, ob, sb, sm, iv, ss, wf⟩ := d
  dsimp only at hod hcd hob hsb hsm hiv hss
  subst hod hcd hob hsb hsm hiv hss
  unfold Host.gather
  refine congrArg x (funext fun a => Fin.ext ?_)
  match a with
  | ⟨0, _⟩ => exact pair_axis0 wf idx (ix1 r)
  | ⟨1, _⟩ => exact pair_axis1 wf idx (ix1 r)

end GatherPair

end Idealize.ShloMosaic.GatherPair

end
-- ==== Proof.RefRead.lean ====
/-
  The reference's term read at a pair: the covariance entry at the positions the two wrapped words name.
-/
import proofs.«410167_j32238024524408_3_alg».proof.Proof.RefTerm
import proofs.«410167_j32238024524408_3_alg».proof.Proof.Cov
import proofs.«410167_j32238024524408_3_alg».proof.Proof.Words
import proofs.«410167_j32238024524408_3_alg».proof.Proof.LibPlainDot
import proofs.«410167_j32238024524408_3_alg».proof.Proof.LibConcatCols
import proofs.«410167_j32238024524408_3_alg».proof.Proof.LibGatherPair
import Idealize.ShloMosaic.Lib.ValueLayout
import Idealize.ShloMosaic.Lib.KernelVsHost

noncomputable section

namespace Cert.ReferenceIdeal.RefValue

open Cert.ReferenceIdeal Cert.ReferenceIdeal.Gen Idealize.ShloMosaic Idealize.ShloMosaic.ValueIdx
open Idealize.ShloMosaic.GatherPair

/-! ## The pieces of the reference's term, each read at an index -/

/-- A wrapped index array at i is the wrap of the word at i. -/
theorem wrapped_apply (x : IVec S4194304 32) (i : Fin 4194304) :
    wrapped x (ix1 i) = Cert.Cov.wrap (x (ix1 i)) :=
  Cert.Cov.wrap_words (x (ix1 i))

/-- The first column of the array of start indices is the first wrapped array. -/
theorem pairs_apply_zero (x y : IVec S4194304 32) (i : Fin 4194304) :
    pairs x y (ix2 i (0 : Fin 2)) = Cert.Cov.wrap (x (ix1 i)) := by
  refine (Cert.LibConcatCols.concat_left (n := 4194304) (w₁ := 1) (w₂ := 1) (w := 2) _ _
    concatenates_S4194304x1_S4194304x1_S4194304x2_d1 i (0 : Fin 1) (by decide)).trans ?_
  refine (broadcastInDim_apply _ bcast_S4194304_S4194304x1_0 (wrapped x) (ix2 i (0 : Fin 1)) (ix1 i)
    (fun a => match a with | ⟨0, _⟩ => rfl)).trans ?_
  exact wrapped_apply x i

/-- The second column of the array of start indices is the second wrapped array. -/
theorem pairs_apply_one (x y : IVec S4194304 32) (i : Fin 4194304) :
    pairs x y (ix2 i (1 : Fin 2)) = Cert.Cov.wrap (y (ix1 i)) := by
  refine (Cert.LibConcatCols.concat_right (n := 4194304) (w₁ := 1) (w₂ := 1) (w := 2) _ _
    concatenates_S4194304x1_S4194304x1_S4194304x2_d1 i (0 : Fin 1) (by decide)).trans ?_
  refine (broadcastInDim_apply _ bcast_S4194304_S4194304x1_0 (wrapped y) (ix2 i (0 : Fin 1)) (ix1 i)
    (fun a => match a with | ⟨0, _⟩ => rfl)).trans ?_
  exact wrapped_apply y i

/-- The diagonal matrix of a vector at (p, q): the vector's entry p on the diagonal, zero off it. -/
theorem diag_apply (s : FVec Ideal S16384 .f32) (p q : Fin 16384) :
    diag (F := Ideal) s (ix2 p q) = if p = q then s (ix1 p) else 0 := by
  have hpad : pad S16384 ![0] ![0] ![0] s (constant (F := Ideal) S_ .f32 0x00000000#32) pads_S16384_S16384_000 h_S_ (ix1 p)
      = s (ix1 p) :=
    pad_apply_of_inside _ _ _ s _ pads_S16384_S16384_000 h_S_ (ix1 p) (ix1 p)
      (fun a => match a with | ⟨0, _⟩ => by show p.val = 0 + p.val * (0 + 1); omega)
  have hrow : broadcastInDim S16384x16384 ![0, 1] bcast_S16384x1_S16384x16384_0_1
      (broadcastInDim S16384x1 ![0] bcast_S16384_S16384x1_0
        (pad S16384 ![0] ![0] ![0] s (constant (F := Ideal) S_ .f32 0x00000000#32) pads_S16384_S16384_000 h_S_)) (ix2 p q)
      = s (ix1 p) := by
    refine (broadcastInDim_apply _ bcast_S16384x1_S16384x16384_0_1 _ (ix2 p q) (ix2 p (0 : Fin 1))
      (fun a => match a with | ⟨0, _⟩ => rfl | ⟨1, _⟩ => rfl)).trans ?_
    refine (broadcastInDim_apply _ bcast_S16384_S16384x1_0 _ (ix2 p (0 : Fin 1)) (ix1 p)
      (fun a => match a with | ⟨0, _⟩ => rfl)).trans ?_
    exact hpad
  show Scalar.select (IntOp.cmpi .eq (IntOp.addi (BitVec.ofNat 32 p.val) 0#32) (BitVec.ofNat 32 q.val))
      (broadcastInDim S16384x16384 ![0, 1] bcast_S16384x1_S16384x16384_0_1
        (broadcastInDim S16384x1 ![0] bcast_S16384_S16384x1_0
          (pad S16384 ![0] ![0] ![0] s (constant (F := Ideal) S_ .f32 0x00000000#32) pads_S16384_S16384_000 h_S_)) (ix2 p q))
      (Ideal.ofBits .f32 0x00000000#32) = _
  rw [Cert.Cov.diag_words, hrow, Ideal.ofBits_zero_f32]
  by_cases h : p = q
  · rw [if_pos h, if_pos h]; exact select_one _ _
  · rw [if_neg h, if_neg h]; exact select_zero _ _

/-- The covariance table at (p, q) is the covariance entry. -/
theorem table_apply (std : FVec Ideal S16384 .f32) (cf : FVec Ideal S16384x32 .f32) (p q : Fin 16384) :
    table (F := Ideal) std cf (ix2 p q) = Cert.Cov.entry std cf p q := by
  show FloatOps.dotGeneral dot_S16384x32_S32x16384_S16384x16384_1_0_0_1_n_n none .single cf
        (transpose S32x16384 [1, 0] cf transposes_S16384x32_S32x16384_1_0) (ix2 p q)
      + diag (F := Ideal) (mulf std std) (ix2 p q) = _
  rw [Cert.LibPlainDot.dotGeneral_apply dot_S16384x32_S32x16384_S16384x16384_1_0_0_1_n_n rfl rfl rfl rfl rfl rfl,
    diag_apply]
  unfold Cert.Cov.entry
  congr 1
  exact Finset.sum_congr rfl fun k _ => by rw [transpose_ix2_apply]

/-- The reference's term at i: the covariance entry at the positions the two wrapped words name. -/
theorem term_apply (x y : IVec S4194304 32) (std : FVec Ideal S16384 .f32) (cf : FVec Ideal S16384x32 .f32) (i : Fin 4194304) :
    term (F := Ideal) x y std cf (ix1 i)
      = Cert.Cov.entry std cf (Cert.Cov.pos (Cert.Cov.wrap (x (ix1 i)))) (Cert.Cov.pos (Cert.Cov.wrap (y (ix1 i)))) := by
  refine (gather_pair_apply (M := 16384) (N := 16384) (R := 4194304) (by decide) (by decide)
    gather_S16384x16384_S4194304x2_S4194304_n_01_n_n_01_1_11 rfl rfl rfl rfl rfl rfl rfl
    (table (F := Ideal) std cf) (pairs x y) i).trans ?_
  have h0 : ∀ h, (⟨min (pairs x y (ix2 i (0 : Fin 2))).toInt.toNat (16384 - 1), h⟩ : Fin 16384)
      = Cert.Cov.pos (Cert.Cov.wrap (x (ix1 i))) := fun _ => Fin.ext (by
    show min (pairs x y (ix2 i (0 : Fin 2))).toInt.toNat (16384 - 1) = min (Cert.Cov.wrap (x (ix1 i))).toInt.toNat 16383
    rw [pairs_apply_zero])
  have h1 : ∀ h, (⟨min (pairs x y (ix2 i (1 : Fin 2))).toInt.toNat (16384 - 1), h⟩ : Fin 16384)
      = Cert.Cov.pos (Cert.Cov.wrap (y (ix1 i))) := fun _ => Fin.ext (by
    show min (pairs x y (ix2 i (1 : Fin 2))).toInt.toNat (16384 - 1) = min (Cert.Cov.wrap (y (ix1 i))).toInt.toNat 16383
    rw [pairs_apply_one])
  rw [h0, h1]
  exact table_apply std cf _ _

end Cert.ReferenceIdeal.RefValue

end
-- ==== Proof.PreDecode.lean ====
/-
  The precondition read back: every word of both index arrays is non-negative as a signed integer.
-/
import proofs.«410167_j32238024524408_3_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic

/-- The scalar shape has exactly one index. -/
instance subsingleton_scalar_idx : Subsingleton S_.Idx := ⟨fun a b => funext fun d => d.elim0⟩

/-- A conjunction over all positions of "this word is at least zero, signed" that came out true says every word
    is non-negative: the conjunction being true makes each compare true, and a true signed compare against the
    zero word is the order of the signed values. -/
theorem nonneg_of_all_sge {u : Shape} (w : IVec S4194304 32) (hb : S_.BroadcastsInDim S4194304 (![] : Fin 0 → Fin S4194304.rank))
    (hr : S4194304.ReducesTo [0] S_) (hu : 0 < u.numel) (init : IVec u 1) (j : S_.Idx)
    (h : Host.reduce IntOp.andi (cmpi .sge w (broadcastInDim S4194304 ![] hb (constantI S_ 32 0#32))) init hr hu j = 1#1)
    (i : S4194304.Idx) : 0 ≤ (w i).toInt := by
  have h1 : cmpi .sge w (broadcastInDim S4194304 ![] hb (constantI S_ 32 0#32)) i = 1#1 :=
    Host.reduce_andi_all _ init hr hu j h i
  have h2 : IntOp.cmpi .sge (w i) (0#32) = 1#1 := h1
  have h3 := IntOp.cmpi_sge.1 h2
  simpa using h3

theorem nonneg_of_pre (x y : IVec S4194304 32) (std : FVec Ideal S16384 .f32) (cf : FVec Ideal S16384x32 .f32)
    (h : fn (F := Ideal) x y std cf = fun _ => 1#1) (i : S4194304.Idx) :
    0 ≤ (x i).toInt ∧ 0 ≤ (y i).toInt := by
  have h0 := congrFun h ValueIdx.ix0
  dsimp only [fn, fn_part1] at h0
  -- the outer conjunction: (finite ∧ finite ∧ all x ≥ 0) ∧ all y ≥ 0
  obtain ⟨h12, h15⟩ := IntOp.andi_eq_one.1 h0
  obtain ⟨_, h11⟩ := IntOp.andi_eq_one.1 h12
  exact ⟨nonneg_of_all_sge x _ _ _ _ _ h11 i, nonneg_of_all_sge y _ _ _ _ _ h15 i⟩

end Cert.Pre_finite_inputs.Decode

end
-- ==== Proof.lean ====
/-
  The certificate: a tiled kernel that looks up entries of a low-rank-plus-diagonal covariance against its reference.

  There are 16384 categories with a 32-coordinate factor row `cf[c, ·]` and a deviation `std[c]` each, and

      covariance[p, q] = Σ_k cf[p, k] · cf[q, k] + (if p = q then std[p]² else 0).

  The reference forms the whole 16384 × 16384 table (a matrix product plus a diagonal matrix) and gathers it at the
  4194304 pairs `(x[i], y[i])`: a negative index is moved up by 16384, and the gather clamps each index into
  `[0, 16383]`. The kernel never forms the table. The host clips each index into `[0, 16383]`; each grid point takes
  512 pairs and, for a position `p = 64 · hi + lo`, multiplies the one-hot row of `hi` into the factor table laid out
  group-major (a sum with one non-zero term: the group's 2048 lanes), masks the lanes with the one-hot row of `lo` and
  sums them (again one term): that is `cf[p, ·]`. The two rows' inner product, plus `[p = q]` times `std[p]²` fetched
  the same way, is the entry. Products with the exact number 0 are 0 and with 1 are the other factor on the extended
  reals, so the one-hot sums collapse with no appeal to finiteness.

  The two programs agree where clipping and wrap-then-clamp name the same position, which is so for every
  non-negative index (both give `min(x, 16383)`), and differ for an index in `(-16384, 0)`; the statement's
  precondition therefore asks, besides finite floats, that every index be non-negative.

  Pieces: `Cov` (positions and the entry), `Words` (the word arithmetic behind the masks, the clip and the wrap),
  `KernelHost` / `KernelBody` / `KernelArr` (the kernel's arrays, one tile, the whole result and its run),
  `RefTerm` / `RefRun` / `RefRead` (the reference's term, its run, the term at a pair), `PreDecode` (the
  precondition read back).
-/
import proofs.«410167_j32238024524408_3_alg».proof.Defs
import proofs.«410167_j32238024524408_3_alg».proof.Proof.Gen.Kernel
import proofs.«410167_j32238024524408_3_alg».proof.Proof.Gen.Kernel.Frame
import proofs.«410167_j32238024524408_3_alg».proof.Proof.Gen.KernelIdeal
import proofs.«410167_j32238024524408_3_alg».proof.Proof.Gen.KernelIdeal.Frame
import proofs.«410167_j32238024524408_3_alg».proof.Proof.Gen.ReferenceIdeal
import proofs.«410167_j32238024524408_3_alg».proof.Proof.Gen.Pre_finite_inputs
import proofs.«410167_j32238024524408_3_alg».proof.Proof.KernelArr
import proofs.«410167_j32238024524408_3_alg».proof.Proof.RefRun
import proofs.«410167_j32238024524408_3_alg».proof.Proof.RefRead
import proofs.«410167_j32238024524408_3_alg».proof.Proof.PreDecode
import Idealize.ShloMosaic.Adequacy
import Idealize.ShloMosaic.Init

noncomputable section

namespace Cert.Proof

open Idealize.ShloMosaic Idealize.SL.Sem Idealize.ShloMosaic.ValueIdx

/-- The kernel as printed runs, faults nowhere, and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- No operation of the kernel was rewritten when it was read over the extended reals. -/
theorem preserves : Cert.preserves_Kernel_KernelIdeal := trivial

/-- Both programs end with, for each pair, the covariance entry at the positions its two words name: the kernel's
    clipped words and the reference's wrapped-then-clamped words name those positions because the words are
    non-negative. -/
theorem algebraic : Cert.algebraic_KernelIdeal_ReferenceIdeal := by
  intro m ρ m' ρ' hpre hagree
  have hn : ∀ (c : Dev Cert.KernelIdeal.nD) (i : Cert.KernelIdeal.S4194304.Idx),
      0 ≤ (Cert.KernelIdeal.HostVal.xs m c i).toInt ∧ 0 ≤ (Cert.KernelIdeal.HostVal.ys m c i).toInt :=
    fun c i => Cert.Pre_finite_inputs.Decode.nonneg_of_pre _ _ _ _ (hpre c) i
  refine ⟨fun c => Cert.Cov.G (Cert.KernelIdeal.HostVal.xs m c) (Cert.KernelIdeal.HostVal.ys m c)
    (Cert.KernelIdeal.HostVal.stds m c) (Cert.KernelIdeal.HostVal.cfs m c), ?_, ?_⟩
  · refine (θ_run Cert.KernelIdeal.defs _ _).mono (fun _ h c => ⟨(h c).1.trans ?_, (h c).2⟩)
      (Cert.KernelIdeal.ArrVal.run m ρ)
    funext i
    show Cert.Cov.entry _ _ (Cert.Cov.clipPos _) (Cert.Cov.clipPos _) = Cert.Cov.entry _ _ (Cert.Cov.pos _) (Cert.Cov.pos _)
    rw [Cert.Cov.clipPos_of_nonneg _ (hn c i).1, Cert.Cov.clipPos_of_nonneg _ (hn c i).2]
  · refine (θ_run Cert.ReferenceIdeal.defs _ _).mono (fun _ h c => ⟨(h c).1.trans ?_, (h c).2⟩)
      (Cert.ReferenceIdeal.RefValue.run (F := Ideal) m' ρ')
    rw [(hagree c).1, (hagree c).2.1, (hagree c).2.2.1, (hagree c).2.2.2]
    funext i
    obtain ⟨n, rfl⟩ : ∃ n : Fin 4194304, i = ix1 n := ⟨i 0, eq_ix1 i⟩
    refine (Cert.ReferenceIdeal.RefValue.term_apply _ _ _ _ n).trans ?_
    show Cert.Cov.entry _ _ (Cert.Cov.pos (Cert.Cov.wrap _)) (Cert.Cov.pos (Cert.Cov.wrap _)) = Cert.Cov.entry _ _ (Cert.Cov.pos _) (Cert.Cov.pos _)
    rw [Cert.Cov.wrap_of_nonneg _ (hn c (ix1 n)).1, Cert.Cov.wrap_of_nonneg _ (hn c (ix1 n)).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
